-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v6_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v6_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096 : Shape := ⟨1, ![4096]⟩
abbrev S_ : Shape := ⟨0, ![]⟩
abbrev S1000x2048 : Shape := ⟨2, ![1000, 2048]⟩
abbrev S1000 : Shape := ⟨1, ![1000]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  reducesTo_S_S_d : S_.ReducesTo [] S_
  bcast_S_S1000x2048 : S_.BroadcastsInDim S1000x2048 (![] : Fin 0 → Fin S1000x2048.rank)
  reducesTo_S1000x2048_S_d0_1 : S1000x2048.ReducesTo [0, 1] S_
  bcast_S_S1000 : S_.BroadcastsInDim S1000 (![] : Fin 0 → Fin S1000.rank)
  reducesTo_S1000_S_d0 : S1000.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg1 : IVec S4096 32) (main_arg5 : FVec F S1000 .f32) (main_v12 : IVec S_ 1) (main_v15 : IVec S1000x2048 1) (main_c_5 : IVec S_ 1) : IVec S_ 1 :=
  let main_v16 : IVec S_ 1 := (fun x v => Host.reduce IntOp.andi x v reducesTo_S1000x2048_S_d0_1 h_S_) main_v15 main_c_5
  let main_v17 : IVec S_ 1 := andi main_v12 main_v16
  let main_v18 : FVec F S1000 .f32 := Host.absf main_arg5
  let main_cst_6 : FVec F S_ .f32 := constant S_ .f32 0x7F800000#32
  let main_v19 : FVec F S1000 .f32 := broadcastInDim S1000 ![] bcast_S_S1000 main_cst_6
  let main_v20 : IVec S1000 1 := cmpf .olt main_v18 main_v19
  let main_c_7 : IVec S_ 1 := constantI S_ 1 1#1
  let main_v21 : IVec S_ 1 := (fun x v => Host.reduce IntOp.andi x v reducesTo_S1000_S_d0 h_S_) main_v20 main_c_7
  let main_v22 : IVec S_ 1 := andi main_v17 main_v21
  let main_c_8 : IVec S_ 32 := constantI S_ 32 0#32
  let main_v23 : IVec S4096 32 := broadcastInDim S4096 ![] bcast_S_S4096 main_c_8
  let main_v24 : IVec S4096 1 := cmpi .sge main_arg1 main_v23
  let main_c_9 : IVec S_ 1 := constantI S_ 1 1#1
  let main_v25 : IVec S_ 1 := (fun x v => Host.reduce IntOp.andi x v reducesTo_S4096_S_d0 h_S_) main_v24 main_c_9
  let main_v26 : IVec S_ 1 := andi main_v22 main_v25
  let main_c_10 : IVec S_ 32 := constantI S_ 32 1000#32
  let main_v27 : IVec S4096 32 := broadcastInDim S4096 ![] bcast_S_S4096 main_c_10
  let main_v28 : IVec S4096 1 := cmpi .slt main_arg1 main_v27
  let main_c_11 : IVec S_ 1 := constantI S_ 1 1#1
  let main_v29 : IVec S_ 1 := (fun x v => Host.reduce IntOp.andi x v reducesTo_S4096_S_d0 h_S_) main_v28 main_c_11
  let main_v30 : IVec S_ 1 := andi main_v26 main_v29
  main_v30

def fn {F : FTy → Type} [FloatOps F] (main_arg0 : FVec F S4096x2048 .f32) (main_arg1 : IVec S4096 32) (main_arg2 : FVec F S4096x2048 .f32) (main_arg3 : FVec F S_ .f32) (main_arg4 : FVec F S1000x2048 .f32) (main_arg5 : FVec F S1000 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg2
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S_ .f32 := Host.absf main_arg3
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S1000x2048 .f32 := Host.absf main_arg4
  let main_cst_4 : FVec F S_ .f32 := constant S_ .f32 0x7F800000#32
  let main_v14 : FVec F S1000x2048 .f32 := broadcastInDim S1000x2048 ![] bcast_S_S1000x2048 main_cst_4
  let main_v15 : IVec S1000x2048 1 := cmpf .olt main_v13 main_v14
  let main_c_5 : IVec S_ 1 := constantI S_ 1 1#1
  fn_part1 (F := F) main_arg1 main_arg5 main_v12 main_v15 main_c_5
-- ==== Kernel.lean ====
abbrev S4096x2048 : Shape := ⟨2, ![4096, 2048]⟩
abbrev S4096 : Shape := ⟨1, ![4096]⟩
abbrev S_ : Shape := ⟨0, ![]⟩
abbrev S1000x2048 : Shape := ⟨2, ![1000, 2048]⟩
abbrev S1000 : Shape := ⟨1, ![1000]⟩
abbrev S1x4096 : Shape := ⟨2, ![1, 4096]⟩
abbrev S1x1000 : Shape := ⟨2, ![1, 1000]⟩
abbrev S1x1 : Shape := ⟨2, ![1, 1]⟩
abbrev S4096x1000 : Shape := ⟨2, ![4096, 1000]⟩
abbrev S4096x1 : Shape := ⟨2, ![4096, 1]⟩
abbrev S256x2048 : Shape := ⟨2, ![256, 2048]⟩
abbrev S1x256 : Shape := ⟨2, ![1, 256]⟩
abbrev S256x1000 : Shape := ⟨2, ![256, 1000]⟩
abbrev S256x1 : Shape := ⟨2, ![256, 1]⟩
abbrev S256 : Shape := ⟨1, ![256]⟩

abbrev nBuf : Space → Nat
  | .hbm => 19
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096, .i32⟩
  | .hbm, ⟨2, _⟩ => ⟨S4096x2048, .f32⟩
  | .hbm, ⟨3, _⟩ => ⟨S_, .f32⟩
  | .hbm, ⟨4, _⟩ => ⟨S1000x2048, .f32⟩
  | .hbm, ⟨5, _⟩ => ⟨S1000, .f32⟩
  | .hbm, ⟨6, _⟩ => ⟨S1x4096, .i32⟩
  | .hbm, ⟨7, _⟩ => ⟨S1000x2048, .bf16⟩
  | .hbm, ⟨8, _⟩ => ⟨S1000x2048, .f32⟩
  | .hbm, ⟨9, _⟩ => ⟨S1000x2048, .bf16⟩
  | .hbm, ⟨10, _⟩ => ⟨S1x1000, .f32⟩
  | .hbm, ⟨11, _⟩ => ⟨S1x1, .f32⟩
  | .hbm, ⟨12, _⟩ => ⟨S4096x1000, .f32⟩
  | .hbm, ⟨13, _⟩ => ⟨S4096x1, .f32⟩
  | .hbm, ⟨14, _⟩ => ⟨S4096, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x256, .i32⟩
  | .local _ .vmem, ⟨5, _⟩ => ⟨S1x256, .i32⟩
  | .local _ .vmem, ⟨6, _⟩ => ⟨S1000x2048, .bf16⟩
  | .local _ .vmem, ⟨7, _⟩ => ⟨S1000x2048, .bf16⟩
  | .local _ .vmem, ⟨8, _⟩ => ⟨S1x1000, .f32⟩
  | .local _ .vmem, ⟨9, _⟩ => ⟨S1x1, .f32⟩
  | .local _ .vmem, ⟨10, _⟩ => ⟨S256x1000, .f32⟩
  | .local _ .vmem, ⟨11, _⟩ => ⟨S256x1000, .f32⟩
  | .local _ .vmem, ⟨12, _⟩ => ⟨S256x1, .f32⟩
  | .local _ .vmem, ⟨13, _⟩ => ⟨S256x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1000x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1000x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1000 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S4096_S1x4096 : S4096.ShapeCasts S1x4096
  bitsLt_bf16_f32 : FTy.bits .bf16 < FTy.bits .f32
  shapeCasts_S1000_S1x1000 : S1000.ShapeCasts S1x1000
  shapeCasts_S_S1x1 : S_.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S256x2048_S256x2048_0_0 : ∀ a, (![0, 0] : Fin 2 → Nat) a + S256x2048.size a ≤ S256x2048.size a
  h_S256x2048 : 0 < S256x2048.numel
  inb_S1000x2048_S1000x2048_0_0 : ∀ a, (![0, 0] : Fin 2 → Nat) a + S1000x2048.size a ≤ S1000x2048.size a
  h_S1000x2048 : 0 < S1000x2048.numel
  shapeCasts_S1000x2048_S1000x2048 : S1000x2048.ShapeCasts S1000x2048
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S256x1000 : S1x1000.Broadcasts S256x1000
  inb_S1x256_S1x256_0_0 : ∀ a, (![0, 0] : Fin 2 → Nat) a + S1x256.size a ≤ S1x256.size a
  h_S1x256 : 0 < S1x256.numel
  shapeCasts_S1x256_S1x256 : S1x256.ShapeCasts S1x256
  transposes_S1x256_p1_0_S256x1 : S1x256.Transposes [1, 0] S256x1
  iota_S1x1000_d1_w32 : S1x1000.Iotas .tc 32 [1]
  broadcasts_S256x1_S256x1000 : S256x1.Broadcasts S256x1000
  natLt_1_32 : 1 < 32
  reduces_S256x2048_S256 : S256x2048.Reduces [1] S256
  shapeCasts_S256_S256x1 : S256.ShapeCasts S256x1
  reduces_S256x1000_S256 : S256x1000.Reduces [1] S256
  inb_S256x1000_S256x1000_0_0 : ∀ a, (![0, 0] : Fin 2 → Nat) a + S256x1000.size a ≤ S256x1000.size a
  h_S256x1000 : 0 < S256x1000.numel
  inb_S256x1_S256x1_0_0 : ∀ a, (![0, 0] : Fin 2 → Nat) a + S256x1.size a ≤ S256x1.size a
  h_S256x1 : 0 < S256x1.numel
  shapeCasts_S4096x1_S4096 : S4096x1.ShapeCasts S4096
  reducesTo_S4096_S_d0 : S4096.ReducesTo [0] S_
  h_S_ : 0 < S_.numel
  dot_S256x2048_S1000x2048_S256x1000_1_1_0_0_n_n_wf : DotDims.WF S256x2048 S1000x2048 S256x1000 [1] [1] [0] [0] [] []
  dot_S256x1000_S1000x2048_S256x2048_1_0_0_1_n_n_wf : DotDims.WF S256x1000 S1000x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x2048.size a
  hwx0_1 : ∀ i : grid0.Coords, EltTy.bits .f32 = 32 ∨ (Rect.block (s := S4096x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x4096.size a
  hwx0_2 : ∀ i : grid0.Coords, EltTy.bits .i32 = 32 ∨ (Rect.block (s := S1x4096) S1x256.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1000x2048.size a ≤ S1000x2048.size a
  hwx0_3 : ∀ i : grid0.Coords, EltTy.bits .bf16 = 32 ∨ (Rect.block (s := S1000x2048) S1000x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1000x2048.size a ≤ S1000x2048.size a
  hwx0_4 : ∀ i : grid0.Coords, EltTy.bits .bf16 = 32 ∨ (Rect.block (s := S1000x2048) S1000x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1000.size a ≤ S1x1000.size a
  hwx0_5 : ∀ i : grid0.Coords, EltTy.bits .f32 = 32 ∨ (Rect.block (s := S1x1000) S1x1000.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1000.size a ≤ S4096x1000.size a
  hwx0_7 : ∀ i : grid0.Coords, EltTy.bits .f32 = 32 ∨ (Rect.block (s := S4096x1000) S256x1000.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1.size a ≤ S4096x1.size a
  hwx0_8 : ∀ i : grid0.Coords, EltTy.bits .f32 = 32 ∨ (Rect.block (s := S4096x1) S256x1.size (cc0_transform_8 i) (hinb0_8 i)).WholeWords (EltTy.packing .f32)

variable [Facts₀]

def dot_S256x2048_S1000x2048_S256x1000_1_1_0_0_n_n : DotDims S256x2048 S1000x2048 S256x1000 where
  lhsContracting := [1]
  rhsContracting := [1]
  lhsNonContracting := [0]
  rhsNonContracting := [0]
  lhsBatch := []
  rhsBatch := []
  wf := dot_S256x2048_S1000x2048_S256x1000_1_1_0_0_n_n_wf
def dot_S256x1000_S1000x2048_S256x2048_1_0_0_1_n_n : DotDims S256x1000 S1000x2048 S256x2048 where
  lhsContracting := [1]
  rhsContracting := [0]
  lhsNonContracting := [0]
  rhsNonContracting := [1]
  lhsBatch := []
  rhsBatch := []
  wf := dot_S256x1000_S1000x2048_S256x2048_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1000x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1000x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1000.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S256x1000.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S256x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S4096 : Shape := ⟨1, ![4096]⟩
abbrev S_ : Shape := ⟨0, ![]⟩
abbrev S1000x2048 : Shape := ⟨2, ![1000, 2048]⟩
abbrev S1000 : Shape := ⟨1, ![1000]⟩
abbrev S2048x1000 : Shape := ⟨2, ![2048, 1000]⟩
abbrev S4096x1000 : Shape := ⟨2, ![4096, 1000]⟩
abbrev S1x1000 : Shape := ⟨2, ![1, 1000]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 87
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096, .i32⟩
  | .hbm, ⟨2, _⟩ => ⟨S4096x2048, .f32⟩
  | .hbm, ⟨3, _⟩ => ⟨S_, .f32⟩
  | .hbm, ⟨4, _⟩ => ⟨S1000x2048, .f32⟩
  | .hbm, ⟨5, _⟩ => ⟨S1000, .f32⟩
  | .hbm, ⟨6, _⟩ => ⟨S2048x1000, .f32⟩
  | .hbm, ⟨7, _⟩ => ⟨S4096x1000, .f32⟩
  | .hbm, ⟨8, _⟩ => ⟨S1x1000, .f32⟩
  | .hbm, ⟨9, _⟩ => ⟨S4096x1000, .f32⟩
  | .hbm, ⟨10, _⟩ => ⟨S4096x1000, .f32⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S4096x1, .i32⟩
  | .hbm, ⟨19, _⟩ => ⟨S4096x2048, .f32⟩
  | .hbm, ⟨20, _⟩ => ⟨S1000x2048, .f32⟩
  | .hbm, ⟨21, _⟩ => ⟨S2048x1000, .f32⟩
  | .hbm, ⟨22, _⟩ => ⟨S4096x1000, .f32⟩
  | .hbm, ⟨23, _⟩ => ⟨S4096x2048, .f32⟩
  | .hbm, ⟨24, _⟩ => ⟨S2048x1000, .f32⟩
  | .hbm, ⟨25, _⟩ => ⟨S4096x1000, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1000, .f32⟩
  | .hbm, ⟨33, _⟩ => ⟨S4096x1000, .f32⟩
  | .hbm, ⟨34, _⟩ => ⟨S4096x1000, .f32⟩
  | .hbm, ⟨35, _⟩ => ⟨S4096x1000, .f32⟩
  | .hbm, ⟨36, _⟩ => ⟨S4096x1000, .f32⟩
  | .hbm, ⟨37, _⟩ => ⟨S4096x1000, .f32⟩
  | .hbm, ⟨38, _⟩ => ⟨S4096x1000, .f32⟩
  | .hbm, ⟨39, _⟩ => ⟨S_, .f32⟩
  | .hbm, ⟨40, _⟩ => ⟨S4096x1000, .f32⟩
  | .hbm, ⟨41, _⟩ => ⟨S4096x1000, .f32⟩
  | .hbm, ⟨42, _⟩ => ⟨S4096x1000, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S4096x1, .f32⟩
  | .hbm, ⟨49, _⟩ => ⟨S4096x1000, .f32⟩
  | .hbm, ⟨50, _⟩ => ⟨S4096x1000, .f32⟩
  | .hbm, ⟨51, _⟩ => ⟨S4096x1000, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1, .f32⟩
  | .hbm, ⟨56, _⟩ => ⟨S4096x1000, .f32⟩
  | .hbm, ⟨57, _⟩ => ⟨S4096x1000, .f32⟩
  | .hbm, ⟨58, _⟩ => ⟨S4096x1, .i32⟩
  | .hbm, ⟨59, _⟩ => ⟨S_, .i32⟩
  | .hbm, ⟨60, _⟩ => ⟨S4096x1, .i32⟩
  | .hbm, ⟨61, _⟩ => ⟨S4096x1, .i1⟩
  | .hbm, ⟨62, _⟩ => ⟨S_, .i32⟩
  | .hbm, ⟨63, _⟩ => ⟨S4096x1, .i32⟩
  | .hbm, ⟨64, _⟩ => ⟨S4096x1, .i32⟩
  | .hbm, ⟨65, _⟩ => ⟨S4096x1, .i32⟩
  | .hbm, ⟨66, _⟩ => ⟨S4096x1x1, .i32⟩
  | .hbm, ⟨67, _⟩ => ⟨S1, .i32⟩
  | .hbm, ⟨68, _⟩ => ⟨S_, .i32⟩
  | .hbm, ⟨69, _⟩ => ⟨S4096x1x1, .i32⟩
  | .hbm, ⟨70, _⟩ => ⟨S4096x1x1, .i1⟩
  | .hbm, ⟨71, _⟩ => ⟨S1x1x1, .i32⟩
  | .hbm, ⟨72, _⟩ => ⟨S4096x1x1, .i32⟩
  | .hbm, ⟨73, _⟩ => ⟨S4096x1x1, .i1⟩
  | .hbm, ⟨74, _⟩ => ⟨S4096x1x1, .i1⟩
  | .hbm, ⟨75, _⟩ => ⟨S_, .i1⟩
  | .hbm, ⟨76, _⟩ => ⟨S4096x1, .i1⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S4096, .f32⟩
  | .hbm, ⟨82, _⟩ => ⟨S4096, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_cst : Ref sig .tc := ⟨.hbm, 43, rfl⟩
abbrev main_call0_v0 : Ref sig .tc := ⟨.hbm, 44, rfl⟩
abbrev main_call0_cst_0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_cst_1 : Ref sig .tc := ⟨.hbm, 52, rfl⟩
abbrev main_call0_v7 : Ref sig .tc := ⟨.hbm, 53, rfl⟩
abbrev main_call0_v8 : Ref sig .tc := ⟨.hbm, 54, rfl⟩
abbrev main_call0_v9 : Ref sig .tc := ⟨.hbm, 55, rfl⟩
abbrev main_call0_v10 : Ref sig .tc := ⟨.hbm, 56, rfl⟩
abbrev main_v32 : Ref sig .tc := ⟨.hbm, 57, rfl⟩
abbrev main_v33 : Ref sig .tc := ⟨.hbm, 58, rfl⟩
abbrev main_call1_c : Ref sig .tc := ⟨.hbm, 59, rfl⟩
abbrev main_call1_v0 : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_c_1 : Ref sig .tc := ⟨.hbm, 67, rfl⟩
abbrev main_call1_c_2 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_c_3 : Ref sig .tc := ⟨.hbm, 75, rfl⟩
abbrev main_call1_v12 : Ref sig .tc := ⟨.hbm, 76, rfl⟩
abbrev main_call1_v13 : Ref sig .tc := ⟨.hbm, 77, rfl⟩
abbrev main_call1_cst : Ref sig .tc := ⟨.hbm, 78, rfl⟩
abbrev main_call1_v14 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_cst_3 : Ref sig .tc := ⟨.hbm, 83, rfl⟩
abbrev main_v37 : Ref sig .tc := ⟨.hbm, 84, rfl⟩
abbrev main_cst_4 : Ref sig .tc := ⟨.hbm, 85, rfl⟩
abbrev main_v38 : Ref sig .tc := ⟨.hbm, 86, rfl⟩

abbrev nD : Nat := 1
abbrev τ : Topo := Topo.v7x

variable {F : FTy → Type} [FloatOps F]

class Facts₀ : Prop where
  transposes_S1000x2048_S2048x1000_1_0 : S1000x2048.Transposes [1, 0] S2048x1000
  bcast_S1000_S1x1000_1 : S1000.BroadcastsInDim S1x1000 (![1] : Fin 1 → Fin S1x1000.rank)
  bcast_S1x1000_S4096x1000_0_1 : S1x1000.BroadcastsInDim S4096x1000 (![0, 1] : Fin 2 → Fin S4096x1000.rank)
  bcast_S_S4096 : S_.BroadcastsInDim S4096 (![] : Fin 0 → Fin S4096.rank)
  bcast_S4096_S4096x1_0 : S4096.BroadcastsInDim S4096x1 (![0] : Fin 1 → Fin S4096x1.rank)
  reducesTo_S4096x2048_S4096_d1 : S4096x2048.ReducesTo [1] S4096
  h_S_ : 0 < S_.numel
  bcast_S_S4096x1000 : S_.BroadcastsInDim S4096x1000 (![] : Fin 0 → Fin S4096x1000.rank)
  bcast_S4096x1_S4096x1000_0_1 : S4096x1.BroadcastsInDim S4096x1000 (![0, 1] : Fin 2 → Fin S4096x1000.rank)
  reducesTo_S4096x1000_S4096_d1 : S4096x1000.ReducesTo [1] S4096
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  reducesTo_S4096_S_d0 : S4096.ReducesTo [0] S_
  dot_S4096x2048_S2048x1000_S4096x1000_1_0_0_1_n_n_wf : DotDims.WF S4096x2048 S2048x1000 S4096x1000 [1] [0] [0] [1] [] []
  gather_S1000x2048_S4096x1_S4096x2048_1_0_n_n_0_1_12048_wf : GatherDims.WF S1000x2048 S4096x1 S4096x2048 [1] [0] [] [0] [] 1 ![1, 2048]
  gather_S4096x1000_S4096x1x1_S4096x1_n_1_0_0_1_2_11_wf : GatherDims.WF S4096x1000 S4096x1x1 S4096x1 [] [1] [0] [1] [0] 2 ![1, 1]

variable [Facts₀]

def dot_S4096x2048_S2048x1000_S4096x1000_1_0_0_1_n_n : DotDims S4096x2048 S2048x1000 S4096x1000 where
  lhsContracting := [1]
  rhsContracting := [0]
  lhsNonContracting := [0]
  rhsNonContracting := [1]
  lhsBatch := []
  rhsBatch := []
  wf := dot_S4096x2048_S2048x1000_S4096x1000_1_0_0_1_n_n_wf
def gather_S1000x2048_S4096x1_S4096x2048_1_0_n_n_0_1_12048 : GatherDims S1000x2048 S4096x1 S4096x2048 where
  offsetDims := [1]
  collapsedSliceDims := [0]
  operandBatchingDims := []
  startIndicesBatchingDims := []
  startIndexMap := [0]
  indexVectorDim := 1
  sliceSizes := ![1, 2048]
  wf := gather_S1000x2048_S4096x1_S4096x2048_1_0_n_n_0_1_12048_wf
def gather_S4096x1000_S4096x1x1_S4096x1_n_1_0_0_1_2_11 : GatherDims S4096x1000 S4096x1x1 S4096x1 where
  offsetDims := []
  collapsedSliceDims := [1]
  operandBatchingDims := [0]
  startIndicesBatchingDims := [0]
  startIndexMap := [1]
  indexVectorDim := 2
  sliceSizes := ![1, 1]
  wf := gather_S4096x1000_S4096x1x1_S4096x1_n_1_0_0_1_2_11_wf

class Facts : Prop extends Facts₀ where

variable [Facts]
-- ==== Proof.Spec.lean ====
/-
  The value both programs compute, on the extended reals, one sample (one row) at a time.

  For a sample with feature row `x`, covariance-weight row `v` and class `y`, over the weight matrix `w` (one row per class),
  the bias `b` and the ratio `r`:
    logit c = ∑ₐ x a · w c a + b c
    aug c   = logit c + ½ · (r · ((∑ₐ v a · (w c a)² − 2 · ∑ₐ (v a · w y a) · w c a) + ∑ₐ w y a · (v a · w y a)))
  (the bracket is ∑ₐ (w c a − w y a)² · v a with the square expanded), and the sample's loss is the negative log-softmax
  of `aug` at the class: with `top = maxₖ aug k` and `mass = ∑ₖ exp (aug k − top)`,
    nll = (top + log mass) − aug y.
  The batch loss is the sum of the samples' losses divided by their number. The constants 2, ½, −∞, 0 and the count 4096 are
  kept as the binary words both programs carry; nothing here needs their values.
-/
import Idealize.ShloMosaic.PureOps.Ideal
import Idealize.ShloMosaic.Lib.ValueIdx

noncomputable section

namespace Cert.Spec

open Idealize.ShloMosaic Idealize.ShloMosaic.ValueIdx

/-- An extended real that is a real number. -/
def IsReal (x : EReal) : Prop := ∃ t : ℝ, (t : EReal) = x

abbrev two : EReal := Ideal.ofBits .f32 0x40000000#32
abbrev half : EReal := Ideal.ofBits .f32 0x3F000000#32
abbrev negInf : EReal := Ideal.ofBits .f32 0xFF800000#32
abbrev zero : EReal := Ideal.ofBits .f32 0x00000000#32
abbrev count : EReal := Ideal.ofBits .f32 0x45800000#32

/-! ## The negative log-softmax of one row of scores -/

/-- The largest of a row of scores (a maximum from −∞ over the classes). -/
def topOf (g : Fin 1000 → EReal) : EReal := (Finset.univ : Finset (Fin 1000)).fold max negInf g

/-- ∑ₖ exp (g k − top). -/
def massOf (g : Fin 1000 → EReal) : EReal := ∑ c : Fin 1000, Ideal.exp (g c - topOf g)

/-- Log-sum-exp of the scores (shifted by their maximum) minus the score of class `y`. -/
def nllOf (g : Fin 1000 → EReal) (y : Fin 1000) : EReal := (topOf g + Ideal.log (massOf g)) - g y

/-! ## One sample -/

section Row

variable (w : Fin 1000 → Fin 2048 → EReal) (b : Fin 1000 → EReal) (r : EReal)

/-- The class-`c` logit of a sample with features `x`. -/
def logit (x : Fin 2048 → EReal) (c : Fin 1000) : EReal := (∑ a : Fin 2048, x a * w c a) + b c

/-- ∑ₐ v a · (w c a)². -/
def quad (v : Fin 2048 → EReal) (c : Fin 1000) : EReal := ∑ a : Fin 2048, v a * (w c a * w c a)

/-- ∑ₐ (v a · w y a) · w c a. -/
def cross (v : Fin 2048 → EReal) (y c : Fin 1000) : EReal := ∑ a : Fin 2048, (v a * w y a) * w c a

/-- ∑ₐ w y a · (v a · w y a). -/
def own (v : Fin 2048 → EReal) (y : Fin 1000) : EReal := ∑ a : Fin 2048, w y a * (v a * w y a)

/-- The augmented logit of class `c` for a sample of class `y`. -/
def aug (x v : Fin 2048 → EReal) (y c : Fin 1000) : EReal :=
  logit w b x c + half * (r * ((quad w v c - two * cross w v y c) + own w v y))

/-- The sample's loss: the negative log-softmax (below) of its augmented logits at its class. -/
def nll (x v : Fin 2048 → EReal) (y : Fin 1000) : EReal := nllOf (aug w b r x v y) y

end Row

/-! ## The same over whole arrays -/

/-- Row `n` of a matrix. -/
abbrev row {N K : Nat} (f : (⟨2, ![N, K]⟩ : Shape).Idx → EReal) (n : Fin N) : Fin K → EReal := fun a => f (ix2 n a)

/-- A vector by its coordinate. -/
abbrev vec {K : Nat} (b : (⟨1, ![K]⟩ : Shape).Idx → EReal) : Fin K → EReal := fun c => b (ix1 c)

/-- All logits: entry (n, c) is sample n's class-c logit. -/
def logitsArr (f : (⟨2, ![4096, 2048]⟩ : Shape).Idx → EReal) (w : (⟨2, ![1000, 2048]⟩ : Shape).Idx → EReal)
    (b : (⟨1, ![1000]⟩ : Shape).Idx → EReal) : (⟨2, ![4096, 1000]⟩ : Shape).Idx → EReal :=
  fun i => logit (row w) (vec b) (row f (i 0)) (i 1)

/-- Every sample's loss. -/
def nllArr (f : (⟨2, ![4096, 2048]⟩ : Shape).Idx → EReal) (y : Fin 4096 → Fin 1000)
    (cv : (⟨2, ![4096, 2048]⟩ : Shape).Idx → EReal) (r : (⟨0, ![]⟩ : Shape).Idx → EReal)
    (w : (⟨2, ![1000, 2048]⟩ : Shape).Idx → EReal) (b : (⟨1, ![1000]⟩ : Shape).Idx → EReal) :
    (⟨1, ![4096]⟩ : Shape).Idx → EReal :=
  fun j => nll (row w) (vec b) (r ix0) (row f (j 0)) (row cv (j 0)) (y (j 0))

/-- The batch loss: the samples' losses summed (from the zero word) and divided by the count. -/
def lossArr (f : (⟨2, ![4096, 2048]⟩ : Shape).Idx → EReal) (y : Fin 4096 → Fin 1000)
    (cv : (⟨2, ![4096, 2048]⟩ : Shape).Idx → EReal) (r : (⟨0, ![]⟩ : Shape).Idx → EReal)
    (w : (⟨2, ![1000, 2048]⟩ : Shape).Idx → EReal) (b : (⟨1, ![1000]⟩ : Shape).Idx → EReal) :
    (⟨0, ![]⟩ : Shape).Idx → EReal :=
  fun _ => Ideal.div (zero + ∑ j : (⟨1, ![4096]⟩ : Shape).Idx, nllArr f y cv r w b j) count

end Cert.Spec

end
-- ==== Proof.SpecReal.lean ====
/-
  Real-valuedness on the extended reals, and the one law the two programs' last steps differ by.

  A sum, difference or product of real numbers is a real number, so every augmented logit of a sample whose data are real
  is real; the maximum of finitely many reals (taken from −∞) is one of them; exp of a real is a positive real, so the
  mass ∑ₖ exp (g k − top) is a positive real and its logarithm is real. For real a, m, l the extended reals obey
  −((a − m) − l) = (m + l) − a, which is how a log-softmax read at the class and negated meets log-sum-exp minus the score.
-/
import proofs.«419979_j506806141617_1_alg».proof.Proof.Spec

noncomputable section

namespace Cert.Spec

open Idealize.ShloMosaic

theorem isReal_coe (t : ℝ) : IsReal (t : EReal) := ⟨t, rfl⟩

theorem IsReal.add {x y : EReal} (hx : IsReal x) (hy : IsReal y) : IsReal (x + y) := by
  obtain ⟨a, rfl⟩ := hx
  obtain ⟨b, rfl⟩ := hy
  exact ⟨a + b, EReal.coe_add a b⟩

theorem IsReal.sub {x y : EReal} (hx : IsReal x) (hy : IsReal y) : IsReal (x - y) := by
  obtain ⟨a, rfl⟩ := hx
  obtain ⟨b, rfl⟩ := hy
  exact ⟨a - b, EReal.coe_sub a b⟩

theorem IsReal.mul {x y : EReal} (hx : IsReal x) (hy : IsReal y) : IsReal (x * y) := by
  obtain ⟨a, rfl⟩ := hx
  obtain ⟨b, rfl⟩ := hy
  exact ⟨a * b, EReal.coe_mul a b⟩

/-- The larger of two reals is one of them, hence real. -/
theorem IsReal.max {x y : EReal} (hx : IsReal x) (hy : IsReal y) : IsReal (max x y) := by
  rcases le_total x y with h | h
  · rw [max_eq_right h]; exact hy
  · rw [max_eq_left h]; exact hx

theorem isReal_sum {ι : Type} (s : Finset ι) (g : ι → EReal) (h : ∀ i ∈ s, IsReal (g i)) : IsReal (∑ i ∈ s, g i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The word of −∞ is the bottom of the extended reals. -/
theorem negInf_eq_bot : negInf = ⊥ := by
  show Ideal.ofBits .f32 0xFF800000#32 = ⊥
  simp [Ideal.ofBits, Ideal.ieee]

/-- The word of 2 is the real number 2. -/
private theorem two_eq : two = ((2 : ℝ) : EReal) := by
  show Ideal.ofBits .f32 0x40000000#32 = _
  simp [Ideal.ofBits, Ideal.ieee, -EReal.coe_mul]; norm_num

/-- The word of ½ is the real number ½. -/
private theorem half_eq : half = ((1 / 2 : ℝ) : EReal) := by
  show Ideal.ofBits .f32 0x3F000000#32 = _
  simp [Ideal.ofBits, Ideal.ieee, -EReal.coe_mul]; norm_num

private theorem two_isReal : IsReal two := ⟨2, two_eq.symm⟩
private theorem half_isReal : IsReal half := ⟨1 / 2, half_eq.symm⟩

/-- Every augmented logit of a sample with real data is real. -/
theorem aug_isReal {w : Fin 1000 → Fin 2048 → EReal} {b : Fin 1000 → EReal} {r : EReal} {x v : Fin 2048 → EReal}
    (hw : ∀ c a, IsReal (w c a)) (hb : ∀ c, IsReal (b c)) (hr : IsReal r) (hx : ∀ a, IsReal (x a)) (hv : ∀ a, IsReal (v a))
    (y c : Fin 1000) : IsReal (aug w b r x v y c) := by
  unfold aug logit quad cross own
  refine IsReal.add (IsReal.add (isReal_sum _ _ fun a _ => (hx a).mul (hw c a)) (hb c)) ?_
  refine half_isReal.mul (hr.mul (IsReal.add (IsReal.sub ?_ (two_isReal.mul ?_)) ?_))
  · exact isReal_sum _ _ fun a _ => (hv a).mul ((hw c a).mul (hw c a))
  · exact isReal_sum _ _ fun a _ => ((hv a).mul (hw y a)).mul (hw c a)
  · exact isReal_sum _ _ fun a _ => (hw y a).mul ((hv a).mul (hw y a))

/-- A maximum taken from −∞ is at least −∞: taking the maximum with −∞ once more changes nothing. -/
theorem max_negInf_topOf (g : Fin 1000 → EReal) : max negInf (topOf g) = topOf g :=
  max_eq_right ((Finset.le_fold_max _).mpr (Or.inl le_rfl))

/-- A maximum from −∞ over finitely many reals is −∞ (over none) or real. -/
private theorem fold_max_bot_or_real {ι : Type} (s : Finset ι) (g : ι → EReal) (h : ∀ i ∈ s, IsReal (g i)) :
    s.fold max ⊥ g = ⊥ ∨ IsReal (s.fold max ⊥ g) := by
  classical
  induction s using Finset.induction_on with
  | empty => exact Or.inl Finset.fold_empty
  | insert a s ha ih =>
    rw [Finset.fold_insert ha]
    have hga : IsReal (g a) := h a (Finset.mem_insert_self a s)
    rcases ih (fun i hi => h i (Finset.mem_insert_of_mem hi)) with hb | hr
    · rw [hb, max_eq_left bot_le]; exact Or.inr hga
    · exact Or.inr (hga.max hr)

/-- The largest of a row of real scores is real: it is at least the first score, so it is not −∞. -/
theorem topOf_isReal (g : Fin 1000 → EReal) (hg : ∀ c, IsReal (g c)) : IsReal (topOf g) := by
  have htop : topOf g = (Finset.univ : Finset (Fin 1000)).fold max ⊥ g := by
    unfold topOf; rw [negInf_eq_bot]
  have h0 : g 0 ≤ topOf g := (Finset.le_fold_max _).mpr (Or.inr ⟨0, Finset.mem_univ _, le_rfl⟩)
  rcases fold_max_bot_or_real Finset.univ g (fun i _ => hg i) with hb | hr
  · exfalso
    obtain ⟨t, ht⟩ := hg 0
    rw [htop, hb, ← ht] at h0
    exact absurd h0 (not_le.mpr (EReal.bot_lt_coe t))
  · rw [htop]; exact hr

/-- For real a, m, l: −((a − m) − l) = (m + l) − a. -/
theorem neg_sub_sub_coe (a m l : ℝ) :
    -(((a : EReal) - (m : EReal)) - (l : EReal)) = ((m : EReal) + (l : EReal)) - (a : EReal) := by
  rw [← EReal.coe_sub, ← EReal.coe_sub, ← EReal.coe_neg, ← EReal.coe_add, ← EReal.coe_sub]
  congr 1
  ring

/-- For a row of real scores, the log-softmax at class `y`, negated, is log-sum-exp minus the score. -/
theorem neg_logSoftmax (g : Fin 1000 → EReal) (hg : ∀ c, IsReal (g c)) (y : Fin 1000) :
    -((g y - topOf g) - Ideal.log (massOf g)) = nllOf g y := by
  obtain ⟨m, hm⟩ := topOf_isReal g hg
  choose f hf using hg
  -- each term of the mass is exp of a real
  have hterm : ∀ c, Ideal.exp (g c - topOf g) = ((Real.exp (f c - m) : ℝ) : EReal) := by
    intro c
    rw [← hf c, ← hm, ← EReal.coe_sub]
    exact Ideal.exp_coe _
  -- so the mass is a positive real
  have hmass : massOf g = ((∑ c : Fin 1000, Real.exp (f c - m) : ℝ) : EReal) := by
    unfold massOf
    rw [coe_sum]
    exact Finset.sum_congr rfl fun c _ => hterm c
  have hpos : 0 < ∑ c : Fin 1000, Real.exp (f c - m) :=
    Finset.sum_pos (fun c _ => Real.exp_pos _) ⟨0, Finset.mem_univ _⟩
  -- and its logarithm is real
  have hlog : Ideal.log (massOf g) = ((Real.log (∑ c : Fin 1000, Real.exp (f c - m)) : ℝ) : EReal) := by
    rw [hmass, Ideal.log_coe, if_neg (not_le.mpr hpos)]
  unfold nllOf
  rw [hlog, ← hf y, ← hm]
  exact neg_sub_sub_coe _ _ _

end Cert.Spec

end
-- ==== Proof.PreDecode.lean ====
/-
  What the precondition says, element by element: every entry of the five float inputs is a real number, and every label is
  a class number, 0 ≤ label < 1000.
-/
import proofs.«419979_j506806141617_1_alg».proof.Proof.Spec
import proofs.«419979_j506806141617_1_alg».proof.Pre_finite_inputs
import Idealize.ShloMosaic.Lib.ReduceAll
import Idealize.ShloMosaic.Lib.Affine
import Idealize.ShloMosaic.Lib.WordArith
import Idealize.ShloMosaic.PureOps.Ideal.Laws

noncomputable section

namespace Cert.PreDecode

open Idealize.ShloMosaic Cert.Pre_finite_inputs

/-- The bound every float entry is compared with is +∞. -/
private theorem bound_eq_top : Ideal.ofBits .f32 0x7F800000#32 = (⊤ : EReal) := by
  simp [Ideal.ofBits, Ideal.ieee]

/-- An extended real whose absolute value max x (−x) lies strictly below +∞ is a real number: at −∞ and at +∞ the
    absolute value is +∞ itself, which is not below +∞. -/
private theorem isReal_of_abs_lt (x : EReal)
    (h : Ideal.cmp .olt (max x (-x)) (Ideal.ofBits .f32 0x7F800000#32) = 1#1) : Spec.IsReal x := by
  rw [bound_eq_top] at h
  simp only [Ideal.cmp, WordArith.ofBool_eq_one_iff, decide_eq_true_eq] at h
  induction x using EReal.rec with
  | bot => simp at h
  | coe r => exact ⟨r, rfl⟩
  | top => simp at h

/-- The conjunction of two one-bit arrays is 1 at an index only where both are. -/
private theorem andi_one {s : Shape} (a b : IVec s 1) (i : s.Idx) (h : andi a b i = 1#1) : a i = 1#1 ∧ b i = 1#1 :=
  IntOp.andi_eq_one.1 h

/-- The shape with no axes has one index. -/
private theorem idx_subsingleton : Subsingleton S_.Idx := ⟨fun a b => funext fun d => d.elim0⟩

/-- A 32-bit word that is at least 0 and below 1000 read as a signed number is below 1000 read as an unsigned one: a
    nonnegative signed reading has the top bit clear, so the two readings agree. -/
private theorem toNat_lt_of_signed (w : BitVec 32) (h0 : IntOp.cmpi .sge w 0#32 = 1#1) (h1 : IntOp.cmpi .slt w 1000#32 = 1#1) :
    w.toNat < 1000 := by
  have a := IntOp.cmpi_sge.1 h0
  have b := IntOp.cmpi_slt.1 h1
  rw [show (0#32 : BitVec 32).toInt = 0 from by decide] at a
  rw [show (1000#32 : BitVec 32).toInt = 1000 from by decide] at b
  rw [BitVec.toInt_eq_toNat_cond] at a b
  split at a <;> omega

/-- The precondition is the conjunction of seven "for all entries" bits. Each is 1, so each compared entry passes its
    test: for a float entry, |x| < +∞, which makes x a real number; for a label, 0 ≤ label and label < 1000 as signed
    words, which bounds its unsigned value by 1000. -/
theorem decode [Cert.Pre_finite_inputs.Facts]
    (x0 : FVec Ideal S4096x2048 .f32) (x1 : IVec S4096 32) (x2 : FVec Ideal S4096x2048 .f32) (x3 : FVec Ideal S_ .f32)
    (x4 : FVec Ideal S1000x2048 .f32) (x5 : FVec Ideal S1000 .f32)
    (h : Cert.Pre_finite_inputs.fn (F := Ideal) x0 x1 x2 x3 x4 x5 = fun _ => 1#1) :
    (∀ i, Spec.IsReal (x0 i)) ∧ (∀ i, Spec.IsReal (x2 i)) ∧ (∀ i, Spec.IsReal (x3 i)) ∧ (∀ i, Spec.IsReal (x4 i))
      ∧ (∀ i, Spec.IsReal (x5 i)) ∧ (∀ i, (x1 i).toNat < 1000) := by
  haveI : Subsingleton S_.Idx := idx_subsingleton
  have h0 := congrFun h ValueIdx.ix0
  dsimp only [Cert.Pre_finite_inputs.fn, Cert.Pre_finite_inputs.fn_part1] at h0
  -- the seven bits, peeled off the conjunction from the outside in
  obtain ⟨h26, h29⟩ := andi_one _ _ _ h0
  obtain ⟨h22, h25⟩ := andi_one _ _ _ h26
  obtain ⟨h17, h21⟩ := andi_one _ _ _ h22
  obtain ⟨h12, h16⟩ := andi_one _ _ _ h17
  obtain ⟨h8, h11⟩ := andi_one _ _ _ h12
  obtain ⟨h3, h7⟩ := andi_one _ _ _ h8
  refine ⟨fun i => ?_, fun i => ?_, fun i => ?_, fun i => ?_, fun i => ?_, fun i => ?_⟩
  · exact isReal_of_abs_lt _ (Host.reduce_andi_all _ _ _ _ _ h3 i)
  · exact isReal_of_abs_lt _ (Host.reduce_andi_all _ _ _ _ _ h7 i)
  · exact isReal_of_abs_lt _ (Host.reduce_andi_all _ _ _ _ _ h11 i)
  · exact isReal_of_abs_lt _ (Host.reduce_andi_all _ _ _ _ _ h16 i)
  · exact isReal_of_abs_lt _ (Host.reduce_andi_all _ _ _ _ _ h21 i)
  · exact toNat_lt_of_signed _ (Host.reduce_andi_all _ _ _ _ _ h25 i) (Host.reduce_andi_all _ _ _ _ _ h29 i)

end Cert.PreDecode

end
-- ==== Proof.KernelPieces.lean ====
/-
  The kernel body's intermediate values on one tile of 256 samples, each read at an index: the logits (a product with the
  weight matrix plus the bias), the one-hot row of a label (1 at the label's class, 0 elsewhere), and the two parts of the
  variance term, ∑ₐ v·w² − 2·∑ₐ (v·w_y)·w and ∑ₐ w_y·(v·w_y), where the label's weight row w_y is the one-hot row times the
  weight matrix.
-/
import proofs.«419979_j506806141617_1_alg».proof.Proof.Gen.KernelIdeal.Skeleton
import proofs.«419979_j506806141617_1_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws
import Mathlib.Algebra.BigOperators.Group.Finset.Piecewise
import Mathlib.Data.EReal.Basic

noncomputable section

namespace Cert.KernelIdeal.Tile

open Idealize.ShloMosaic Idealize.ShloMosaic.ValueIdx Cert.KernelIdeal Cert.KernelIdeal.Gen

/-! ## The two products read at an index -/

section Products
variable {φ₁ φ₂ : FTy}

private theorem lhs_rowsT_0 (i : S256x1000.Idx) (k : dot_S256x2048_S1000x2048_S256x1000_1_1_0_0_n_n.contr.Idx) :
    (dot_S256x2048_S1000x2048_S256x1000_1_1_0_0_n_n.lhsIdx i k 0).val = (i 0).val := by
  unfold DotDims.lhsIdx
  rw [dif_neg (show ¬(0 : Fin S256x2048.rank) ∈ dot_S256x2048_S1000x2048_S256x1000_1_1_0_0_n_n.lhsBatch by decide), dif_pos (show (0 : Fin S256x2048.rank) ∈ dot_S256x2048_S1000x2048_S256x1000_1_1_0_0_n_n.lhsNonContracting by decide)]
  rfl
private theorem lhs_rowsT_1 (i : S256x1000.Idx) (k : dot_S256x2048_S1000x2048_S256x1000_1_1_0_0_n_n.contr.Idx) :
    (dot_S256x2048_S1000x2048_S256x1000_1_1_0_0_n_n.lhsIdx i k 1).val = (k ⟨0, by decide⟩).val :=
  dot_S256x2048_S1000x2048_S256x1000_1_1_0_0_n_n.lhsIdx_val_of_single rfl i k
private theorem rhs_rowsT_0 (i : S256x1000.Idx) (k : dot_S256x2048_S1000x2048_S256x1000_1_1_0_0_n_n.contr.Idx) :
    (dot_S256x2048_S1000x2048_S256x1000_1_1_0_0_n_n.rhsIdx i k 0).val = (i 1).val := by
  unfold DotDims.rhsIdx
  rw [dif_neg (show ¬(0 : Fin S1000x2048.rank) ∈ dot_S256x2048_S1000x2048_S256x1000_1_1_0_0_n_n.rhsBatch by decide), dif_pos (show (0 : Fin S1000x2048.rank) ∈ dot_S256x2048_S1000x2048_S256x1000_1_1_0_0_n_n.rhsNonContracting by decide)]
  rfl
private theorem rhs_rowsT_1 (i : S256x1000.Idx) (k : dot_S256x2048_S1000x2048_S256x1000_1_1_0_0_n_n.contr.Idx) :
    (dot_S256x2048_S1000x2048_S256x1000_1_1_0_0_n_n.rhsIdx i k 1).val = (k ⟨0, by decide⟩).val :=
  dot_S256x2048_S1000x2048_S256x1000_1_1_0_0_n_n.rhsIdx_val_of_single rfl i k

/-- A product against the transposed right factor, into a zero accumulator: entry (p, q) is ∑ₐ l (p, a) · r (q, a). -/
private theorem rowsT_apply (l : FVec Ideal S256x2048 φ₁) (r : FVec Ideal S1000x2048 φ₂) (p : Fin 256) (q : Fin 1000) :
    matmul dot_S256x2048_S1000x2048_S256x1000_1_1_0_0_n_n none l r (constant (F := Ideal) S256x1000 .f32 0x00000000#32) (ix2 p q)
      = ∑ a : Fin 2048, l (ix2 p a) * r (ix2 q a) := by
  simp only [matmul]
  rw [Ideal.matmul_constant_zero_apply, ← Equiv.sum_comp (ValueIdx.contrEquiv1 dot_S256x2048_S1000x2048_S256x1000_1_1_0_0_n_n 2048 rfl rfl).symm]
  refine Finset.sum_congr rfl fun a _ => ?_
  have hk := ValueIdx.contrEquiv1_symm_val dot_S256x2048_S1000x2048_S256x1000_1_1_0_0_n_n 2048 rfl rfl a
  have el : dot_S256x2048_S1000x2048_S256x1000_1_1_0_0_n_n.lhsIdx (ix2 p q) ((ValueIdx.contrEquiv1 dot_S256x2048_S1000x2048_S256x1000_1_1_0_0_n_n 2048 rfl rfl).symm a) = ix2 p a := funext fun b => Fin.ext (by
    match b with
    | ⟨0, _⟩ => exact lhs_rowsT_0 _ _
    | ⟨1, _⟩ => exact (lhs_rowsT_1 _ _).trans hk)
  have er : dot_S256x2048_S1000x2048_S256x1000_1_1_0_0_n_n.rhsIdx (ix2 p q) ((ValueIdx.contrEquiv1 dot_S256x2048_S1000x2048_S256x1000_1_1_0_0_n_n 2048 rfl rfl).symm a) = ix2 q a := funext fun b => Fin.ext (by
    match b with
    | ⟨0, _⟩ => exact rhs_rowsT_0 _ _
    | ⟨1, _⟩ => exact (rhs_rowsT_1 _ _).trans hk)
  rw [el, er]

private theorem lhs_rows_0 (i : S256x2048.Idx) (k : dot_S256x1000_S1000x2048_S256x2048_1_0_0_1_n_n.contr.Idx) :
    (dot_S256x1000_S1000x2048_S256x2048_1_0_0_1_n_n.lhsIdx i k 0).val = (i 0).val := by
  unfold DotDims.lhsIdx
  rw [dif_neg (show ¬(0 : Fin S256x1000.rank) ∈ dot_S256x1000_S1000x2048_S256x2048_1_0_0_1_n_n.lhsBatch by decide), dif_pos (show (0 : Fin S256x1000.rank) ∈ dot_S256x1000_S1000x2048_S256x2048_1_0_0_1_n_n.lhsNonContracting by decide)]
  rfl
private theorem lhs_rows_1 (i : S256x2048.Idx) (k : dot_S256x1000_S1000x2048_S256x2048_1_0_0_1_n_n.contr.Idx) :
    (dot_S256x1000_S1000x2048_S256x2048_1_0_0_1_n_n.lhsIdx i k 1).val = (k ⟨0, by decide⟩).val :=
  dot_S256x1000_S1000x2048_S256x2048_1_0_0_1_n_n.lhsIdx_val_of_single rfl i k
private theorem rhs_rows_0 (i : S256x2048.Idx) (k : dot_S256x1000_S1000x2048_S256x2048_1_0_0_1_n_n.contr.Idx) :
    (dot_S256x1000_S1000x2048_S256x2048_1_0_0_1_n_n.rhsIdx i k 0).val = (k ⟨0, by decide⟩).val :=
  dot_S256x1000_S1000x2048_S256x2048_1_0_0_1_n_n.rhsIdx_val_of_single rfl i k
private theorem rhs_rows_1 (i : S256x2048.Idx) (k : dot_S256x1000_S1000x2048_S256x2048_1_0_0_1_n_n.contr.Idx) :
    (dot_S256x1000_S1000x2048_S256x2048_1_0_0_1_n_n.rhsIdx i k 1).val = (i 1).val := by
  unfold DotDims.rhsIdx
  rw [dif_neg (show ¬(1 : Fin S1000x2048.rank) ∈ dot_S256x1000_S1000x2048_S256x2048_1_0_0_1_n_n.rhsBatch by decide), dif_pos (show (1 : Fin S1000x2048.rank) ∈ dot_S256x1000_S1000x2048_S256x2048_1_0_0_1_n_n.rhsNonContracting by decide)]
  rfl

/-- A plain product, into a zero accumulator: entry (p, a) is ∑_c l (p, c) · r (c, a). -/
private theorem rows_apply (l : FVec Ideal S256x1000 φ₁) (r : FVec Ideal S1000x2048 φ₂) (p : Fin 256) (a : Fin 2048) :
    matmul dot_S256x1000_S1000x2048_S256x2048_1_0_0_1_n_n none l r (constant (F := Ideal) S256x2048 .f32 0x00000000#32) (ix2 p a)
      = ∑ c : Fin 1000, l (ix2 p c) * r (ix2 c a) := by
  simp only [matmul]
  rw [Ideal.matmul_constant_zero_apply, ← Equiv.sum_comp (ValueIdx.contrEquiv1 dot_S256x1000_S1000x2048_S256x2048_1_0_0_1_n_n 1000 rfl rfl).symm]
  refine Finset.sum_congr rfl fun c _ => ?_
  have hk := ValueIdx.contrEquiv1_symm_val dot_S256x1000_S1000x2048_S256x2048_1_0_0_1_n_n 1000 rfl rfl c
  have el : dot_S256x1000_S1000x2048_S256x2048_1_0_0_1_n_n.lhsIdx (ix2 p a) ((ValueIdx.contrEquiv1 dot_S256x1000_S1000x2048_S256x2048_1_0_0_1_n_n 1000 rfl rfl).symm c) = ix2 p c := funext fun b => Fin.ext (by
    match b with
    | ⟨0, _⟩ => exact lhs_rows_0 _ _
    | ⟨1, _⟩ => exact (lhs_rows_1 _ _).trans hk)
  have er : dot_S256x1000_S1000x2048_S256x2048_1_0_0_1_n_n.rhsIdx (ix2 p a) ((ValueIdx.contrEquiv1 dot_S256x1000_S1000x2048_S256x2048_1_0_0_1_n_n 1000 rfl rfl).symm c) = ix2 c a := funext fun b => Fin.ext (by
    match b with
    | ⟨0, _⟩ => exact (rhs_rows_0 _ _).trans hk
    | ⟨1, _⟩ => exact rhs_rows_1 _ _)
  rw [el, er]

end Products

/-! ## Columns: a vector stood up as a column, and a column spread over the classes -/

section Columns
variable {α : Type}

/-- A vector of 256 entries stood up as a 256 × 1 column reads, at (p, u), its entry p. -/
private theorem column_apply (v : S256.Idx → α) (h : S256.ShapeCasts S256x1) (p : Fin 256) (u : Fin 1) :
    shapeCast S256x1 v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A 256 × 1 column spread over 1000 columns reads, at (p, q), the column's entry p. -/
private theorem spreadColumn_apply (v : S256x1.Idx → α) (h : S256x1.Broadcasts S256x1000) (p : Fin 256) (q : Fin 1000) :
    broadcastTo S256x1000 v h (ix2 p q) = v (ix2 p (0 : Fin 1)) := by
  refine broadcastTo_apply v h (ix2 p q) (ix2 p (0 : Fin 1)) fun ax => ?_
  match ax with
  | ⟨0, _⟩ =>
    show p.val = if (256 : Nat) = 1 then 0 else p.val
    rw [if_neg (by decide)]
  | ⟨1, _⟩ => rfl

end Columns

/-! ## The labels -/

section Labels
variable (x2 : Vec Ideal S1x256 .i32)

/-- The comparison the kernel makes at (p, q): sample p's label word against the word of the class number q. -/
private theorem labelEq_apply (p : Fin 256) (q : Fin 1000) :
    k0_pay5 (F := Ideal) x2 (ix2 p q) = IntOp.cmpi .eq (x2 (ix2 0 p)) (BitVec.ofNat 32 q.val) := by
  unfold k0_pay5
  show IntOp.cmpi .eq (broadcastTo S256x1000 _ _ (ix2 p q)) (broadcastTo S256x1000 _ _ (ix2 p q)) = _
  rw [spreadColumn_apply, transpose_ix2_apply, shapeCast_self, broadcastTo_1b_ab_apply, iota_single_apply]

/-- Two class numbers have the same 32-bit word only if they are the same class. -/
private theorem word_inj {a b : Fin 1000} (h : BitVec.ofNat 32 a.val = BitVec.ofNat 32 b.val) : a = b := by
  have := congrArg BitVec.toNat h
  simp only [BitVec.toNat_ofNat] at this
  have ha := a.isLt
  have hb := b.isLt
  exact Fin.ext (by omega)

end Labels

/-! ## The four values of the tile -/

variable (x0 x1 : Vec Ideal S256x2048 .f32) (x2 : Vec Ideal S1x256 .i32) (x3 x4 : Vec Ideal S1000x2048 .bf16)
  (x5 : Vec Ideal S1x1000 .f32)

theorem logits_apply (p : Fin 256) (q : Fin 1000) :
    k0_pay4 (F := Ideal) x0 x3 x5 (ix2 p q) = Spec.logit (Spec.row x3) (fun c => x5 (ix2 0 c)) (Spec.row x0 p) q := by
  unfold k0_pay4 k0_pay3 Spec.logit
  show matmul (F := Ideal) _ none _ _ _ (ix2 p q) + broadcastTo S256x1000 _ _ (ix2 p q) = _
  rw [rowsT_apply, broadcastTo_1b_ab_apply, shapeCast_self, shapeCast_self]
  rfl

/-- The set bit of a comparison, widened to a word and read as a number, is 1. -/
private theorem bit_one : ((((1#1 : BitVec 1).setWidth 32).toInt : ℝ) : EReal) = 1 := by
  have h : ((1#1 : BitVec 1).setWidth 32).toInt = 1 := by decide
  rw [h, Int.cast_one, EReal.coe_one]

/-- The cleared bit of a comparison, widened to a word and read as a number, is 0. -/
private theorem bit_zero : ((((0#1 : BitVec 1).setWidth 32).toInt : ℝ) : EReal) = 0 := by
  have h : ((0#1 : BitVec 1).setWidth 32).toInt = 0 := by decide
  rw [h, Int.cast_zero, EReal.coe_zero]

theorem onehot_apply (y : Fin 256 → Fin 1000) (hy : ∀ p, x2 (ix2 0 p) = BitVec.ofNat 32 (y p).val) (p : Fin 256) (q : Fin 1000) :
    k0_pay6 (F := Ideal) x2 (ix2 p q) = if q = y p then 1 else 0 := by
  unfold k0_pay6
  show ((((k0_pay5 (F := Ideal) x2 (ix2 p q)).setWidth 32).toInt : ℝ) : EReal) = _
  rw [labelEq_apply, hy p]
  by_cases h : q = y p
  · rw [if_pos h, h, StableHlo.Predicate.cmpi_eq_iff.mpr rfl]
    exact bit_one
  · have hne : ¬ IntOp.cmpi .eq (BitVec.ofNat 32 (y p).val) (BitVec.ofNat 32 q.val) = 1#1 := fun e =>
      h (word_inj (StableHlo.Predicate.cmpi_eq_iff.mp e)).symm
    rw [if_neg h, eq_zero_of_ne_one hne]
    exact bit_zero

/-- The label's weight row: the one-hot row of sample p times the weight matrix is the weight row of p's class. -/
private theorem labelRow_apply (y : Fin 256 → Fin 1000) (hy : ∀ p, x2 (ix2 0 p) = BitVec.ofNat 32 (y p).val) (p : Fin 256) (a : Fin 2048) :
    k0_pay7 (F := Ideal) x3 x2 (ix2 p a) = x3 (ix2 (y p) a) := by
  unfold k0_pay7 k0_pay3
  refine (rows_apply _ _ p a).trans ?_
  rw [shapeCast_self]
  have e : ∀ c : Fin 1000, (truncf .bf16 (sitofp (F := Ideal) .f32 (extui 32 (k0_pay5 (F := Ideal) x2) natLt_1_32)) bitsLt_bf16_f32 : FVec Ideal S256x1000 .bf16) (ix2 p c)
      = if c = y p then 1 else 0 := fun c => onehot_apply x2 y hy p c
  simp only [e, ite_mul, one_mul, zero_mul, Finset.sum_ite_eq', Finset.mem_univ, if_true]

/-- The covariance weights times the label's weight row. -/
private theorem weighted_apply (y : Fin 256 → Fin 1000) (hy : ∀ p, x2 (ix2 0 p) = BitVec.ofNat 32 (y p).val) (p : Fin 256) (a : Fin 2048) :
    k0_pay8 (F := Ideal) x1 x3 x2 (ix2 p a) = x1 (ix2 p a) * x3 (ix2 (y p) a) := by
  unfold k0_pay8
  show x1 (ix2 p a) * k0_pay7 (F := Ideal) x3 x2 (ix2 p a) = _
  rw [labelRow_apply x2 x3 y hy]

theorem spread_apply (y : Fin 256 → Fin 1000) (hy : ∀ p, x2 (ix2 0 p) = BitVec.ofNat 32 (y p).val)
    (hsq : ∀ c a, x4 (ix2 c a) = x3 (ix2 c a) * x3 (ix2 c a)) (p : Fin 256) (q : Fin 1000) :
    k0_pay9 (F := Ideal) x1 x3 x4 x2 (ix2 p q)
      = Spec.quad (Spec.row x3) (Spec.row x1 p) q - Spec.two * Spec.cross (Spec.row x3) (Spec.row x1 p) (y p) q := by
  unfold k0_pay9 k0_pay3 Spec.quad Spec.cross
  show matmul (F := Ideal) _ none _ _ _ (ix2 p q) - Spec.two * matmul (F := Ideal) _ none _ _ _ (ix2 p q) = _
  rw [rowsT_apply, rowsT_apply, shapeCast_self, shapeCast_self]
  congr 1
  · exact Finset.sum_congr rfl fun a _ => congrArg (x1 (ix2 p a) * ·) (hsq q a)
  · exact congrArg (Spec.two * ·) (Finset.sum_congr rfl fun a _ =>
      congrArg (· * x3 (ix2 q a)) (weighted_apply x1 x2 x3 y hy p a))

/-- The sum over a tile row's 2048 features, the accumulator word being the zero word. -/
private theorem rowSum_apply (v : FVec Ideal S256x2048 .f32) (h : S256x2048.Reduces [1] S256)
    (hφ : FKind.Formats .f32) (hacc : (0x00000000#32 : BitVec 32) = 0x00000000#32) (p : Fin 256) :
    multiReduction (F := Ideal) .add [1] S256 v 0x00000000#32 h hφ hacc (ix1 p) = ∑ a : Fin 2048, v (ix2 p a) := by
  refine (Ideal.multiReduction_add_single v 0x00000000#32 h hφ hacc (ix1 p)).trans ?_
  refine Finset.sum_congr rfl fun a _ => congrArg v ?_
  funext c
  match c with
  | ⟨0, _⟩ => exact Fin.ext rfl
  | ⟨1, _⟩ => exact Fin.ext rfl

theorem own_apply (y : Fin 256 → Fin 1000) (hy : ∀ p, x2 (ix2 0 p) = BitVec.ofNat 32 (y p).val) (p : Fin 256) (q : Fin 1000) :
    k0_pay10 (F := Ideal) x1 x3 x2 (ix2 p q) = Spec.own (Spec.row x3) (Spec.row x1 p) (y p) := by
  unfold k0_pay10 Spec.own
  refine (spreadColumn_apply _ _ p q).trans ?_
  refine (column_apply _ _ p 0).trans ?_
  refine (rowSum_apply _ _ _ _ p).trans ?_
  refine Finset.sum_congr rfl fun a _ => ?_
  show k0_pay7 (F := Ideal) x3 x2 (ix2 p a) * k0_pay8 (F := Ideal) x1 x3 x2 (ix2 p a) = _
  rw [labelRow_apply x2 x3 y hy, weighted_apply x1 x2 x3 y hy]

end Cert.KernelIdeal.Tile

end
-- ==== Proof.KernelNll.lean ====
/-
  The kernel body's last value on one tile: from the logits, the one-hot rows and the two parts of the variance term, sample
  p's loss is the negative log-softmax of its augmented logits at its class — the row maximum, the logarithm of the sum of
  the shifted exponentials, and the class's own augmented logit picked out by summing the one-hot row times the row.
-/
import proofs.«419979_j506806141617_1_alg».proof.Proof.Gen.KernelIdeal.Skeleton
import proofs.«419979_j506806141617_1_alg».proof.Proof.Spec
import Idealize.ShloMosaic.Lib.ValueIdx
import Idealize.ShloMosaic.Lib.ValueLayout
import Idealize.ShloMosaic.PureOps.Ideal.Laws

noncomputable section

namespace Cert.KernelIdeal.Tile

open Idealize.ShloMosaic Idealize.ShloMosaic.ValueIdx Cert.KernelIdeal Cert.KernelIdeal.Gen

/-- Row `p`'s index with the class coordinate `q` put back on axis 1 is `(p, q)`. -/
private theorem lift_row (p : Fin 256) (q : Fin 1000) :
    reduces_S256x1000_S256.lift (ix1 p) q = ix2 p q := by
  funext d; match d with | ⟨0, _⟩ => rfl | ⟨1, _⟩ => rfl

/-- The row maximum at row `p`: the fold of `max` from −∞ over the classes of the row's entries. -/
private theorem rowMax_apply (src : FVec Ideal S256x1000 .f32) (p : Fin 256) :
    multiReduction (F := Ideal) .maximumf [1] S256 src 0xFF800000#32 reduces_S256x1000_S256 (.inl rfl) rfl (ix1 p)
      = (Finset.univ : Finset (Fin 1000)).fold max Spec.negInf (fun q => src (ix2 p q)) := by
  refine (Ideal.multiReduction_maximumf_single src 0xFF800000#32 reduces_S256x1000_S256 (.inl rfl) rfl (ix1 p)).trans ?_
  show (Finset.univ : Finset (Fin 1000)).fold max Spec.negInf (src ∘ reduces_S256x1000_S256.lift (ix1 p)) = _
  exact congrArg (fun f : Fin 1000 → EReal => (Finset.univ : Finset (Fin 1000)).fold max Spec.negInf f)
    (funext fun q => congrArg src (lift_row p q))

/-- The row sum at row `p`: the sum over the classes of the row's entries. -/
private theorem rowSum_apply (src : FVec Ideal S256x1000 .f32) (p : Fin 256) :
    multiReduction (F := Ideal) .add [1] S256 src 0x00000000#32 reduces_S256x1000_S256 (.inl rfl) rfl (ix1 p)
      = ∑ q : Fin 1000, src (ix2 p q) := by
  refine (Ideal.multiReduction_add_single src 0x00000000#32 reduces_S256x1000_S256 (.inl rfl) rfl (ix1 p)).trans ?_
  show ∑ q : Fin 1000, src (reduces_S256x1000_S256.lift (ix1 p) q) = _
  exact Finset.sum_congr rfl fun q _ => congrArg src (lift_row p q)

/-- A vector of 256 entries cast to a column reads, at `(p, u)`, the vector at `p`. -/
private theorem col_apply {α : Type} (x : S256.Idx → α) (p : Fin 256) (u : Fin 1) :
    shapeCast S256x1 x shapeCasts_S256_S256x1 (ix2 p u) = x (ix1 p) :=
  shapeCast_apply x shapeCasts_S256_S256x1 _ _ (by
    have hu : u.val = 0 := by omega
    rw [Shape.rowMajor_val_one, Shape.rowMajor_val_two]
    show p.val = p.val * 1 + u.val
    rw [hu, Nat.mul_one, Nat.add_zero])

/-- A column broadcast along the classes reads, at `(p, q)`, the column at row `p`. -/
private theorem bcol_apply {α : Type} (x : S256x1.Idx → α) (p : Fin 256) (q : Fin 1000) :
    broadcastTo S256x1000 x broadcasts_S256x1_S256x1000 (ix2 p q) = x (ix2 p 0) := by
  refine broadcastTo_apply x broadcasts_S256x1_S256x1000 (ix2 p q) (ix2 p 0) fun ax => ?_
  match ax with
  | ⟨0, _⟩ => rfl
  | ⟨1, _⟩ => rfl

/-- The exponential and the logarithm of a vector read at an index. -/
private theorem exp_apply {s : Shape} {φ : FTy} (x : FVec Ideal s φ) (i : s.Idx) : exp x i = Ideal.exp (x i) := rfl
private theorem log_apply {s : Shape} {φ : FTy} (x : FVec Ideal s φ) (i : s.Idx) : log x i = Ideal.log (x i) := rfl

/-- The column of the row maxima of `a`. -/
private abbrev topCol (a : FVec Ideal S256x1000 .f32) : FVec Ideal S256x1 .f32 :=
  shapeCast S256x1 (multiReduction (F := Ideal) .maximumf [1] S256 a 0xFF800000#32 reduces_S256x1000_S256 (.inl rfl) rfl)
    shapeCasts_S256_S256x1

/-- The exponentials of `a` shifted row by row by the row's maximum. -/
private abbrev shiftedExp (a : FVec Ideal S256x1000 .f32) : FVec Ideal S256x1000 .f32 :=
  exp (subf a (broadcastTo S256x1000 (topCol a) broadcasts_S256x1_S256x1000))

/-- The column of the row sums of `x`. -/
private abbrev sumCol (x : FVec Ideal S256x1000 .f32) : FVec Ideal S256x1 .f32 :=
  shapeCast S256x1 (multiReduction (F := Ideal) .add [1] S256 x 0x00000000#32 reduces_S256x1000_S256 (.inl rfl) rfl)
    shapeCasts_S256_S256x1

/-- Every entry of row `p` of the maxima's column is the top of `a`'s row `p`. -/
private theorem topCol_apply (a : FVec Ideal S256x1000 .f32) (p : Fin 256) (u : Fin 1) :
    topCol a (ix2 p u) = Spec.topOf (fun q => a (ix2 p q)) :=
  (col_apply _ p u).trans (rowMax_apply a p)

/-- Row `p` of the sums' column is the sum of `x`'s row `p`. -/
private theorem sumCol_apply (x : FVec Ideal S256x1000 .f32) (p : Fin 256) (u : Fin 1) :
    sumCol x (ix2 p u) = ∑ q : Fin 1000, x (ix2 p q) :=
  (col_apply _ p u).trans (rowSum_apply x p)

/-- The shifted exponential at `(p, q)`: the entry less its row's top, exponentiated. -/
private theorem shiftedExp_apply (a : FVec Ideal S256x1000 .f32) (p : Fin 256) (q : Fin 1000) :
    shiftedExp a (ix2 p q) = Ideal.exp (a (ix2 p q) - Spec.topOf (fun q => a (ix2 p q))) :=
  (exp_apply _ _).trans (congrArg Ideal.exp ((subf_apply _ _ _).trans
    (congrArg (fun z => a (ix2 p q) - z) ((bcol_apply _ p q).trans (topCol_apply a p 0)))))

/-- The shifted exponentials of row `p` sum to the row's mass. -/
private theorem mass_apply (a : FVec Ideal S256x1000 .f32) (p : Fin 256) :
    sumCol (shiftedExp a) (ix2 p 0) = Spec.massOf (fun q => a (ix2 p q)) :=
  (sumCol_apply _ p 0).trans (Finset.sum_congr rfl fun q _ => shiftedExp_apply a p q)

/-- A one-hot row times `a`'s row sums to `a`'s entry at the marked class: `1 · x = x` and `0 · x = 0` hold at every
extended real, so every other term of the sum vanishes. -/
private theorem own_apply (y a : FVec Ideal S256x1000 .f32) (p : Fin 256) (yp : Fin 1000)
    (hy : ∀ q : Fin 1000, y (ix2 p q) = if q = yp then 1 else 0) :
    sumCol (mulf y a) (ix2 p 0) = a (ix2 p yp) := by
  refine (sumCol_apply _ p 0).trans ?_
  refine (Finset.sum_congr rfl fun q _ => mulf_apply y a (ix2 p q)).trans ?_
  rw [Finset.sum_eq_single yp]
  · rw [hy yp, if_pos rfl, one_mul]
  · intro q _ hq
    rw [hy q, if_neg hq, zero_mul]
  · intro h
    exact absurd (Finset.mem_univ yp) h

/-- The negative log-softmax of the rows of `a` at the class the one-hot rows of `y` mark, as the kernel takes it: at row `p`,
the row maximum plus the logarithm of the row sum of the exponentials shifted by it, minus the row sum of `y` times `a`. -/
private theorem lse_apply (y a : FVec Ideal S256x1000 .f32) (p : Fin 256) (yp : Fin 1000)
    (hy : ∀ q : Fin 1000, y (ix2 p q) = if q = yp then 1 else 0) :
    subf (addf (topCol a) (log (sumCol (shiftedExp a)))) (sumCol (mulf y a)) (ix2 p 0)
      = Spec.nllOf (fun q => a (ix2 p q)) yp :=
  (subf_apply _ _ _).trans (congrArg₂ (fun s t : EReal => s - t)
    ((addf_apply _ _ _).trans (congrArg₂ (fun s t : EReal => s + t) (topCol_apply a p 0)
      ((log_apply _ _).trans (congrArg Ideal.log (mass_apply a p)))))
    (own_apply y a p yp hy))

/-- Sample `p`'s stored loss on the tile is the negative log-softmax of its augmented logits at its class. -/
theorem nll_apply (v1 : Ideal .f32) (v14 v23 v37 v38 : FVec Ideal S256x1000 .f32) (p : Fin 256) (yp : Fin 1000)
    (h23 : ∀ q : Fin 1000, v23 (ix2 p q) = if q = yp then 1 else 0) :
    k0_pay1 (F := Ideal) v1 v14 v23 v37 v38 (ix2 p 0)
      = Spec.nllOf (fun q => v14 (ix2 p q) + Spec.half * (v1 * (v37 (ix2 p q) + v38 (ix2 p q)))) yp :=
  lse_apply v23
    (addf v14 (mulf (broadcast S256x1000 (Scalar.ofBits (F := Ideal) .f32 0x3F000000#32))
      (mulf (broadcast S256x1000 v1) (addf v37 v38))))
    p yp h23

end Cert.KernelIdeal.Tile

end
-- ==== Proof.KernelValue.lean ====
/-
  What the kernel program computes, on the extended reals.

  The grid has 16 points; point t works on the 256 samples 256·t … 256·t + 255: its blocks of the features and of the
  covariance weights are those rows, its block of the labels those entries, and the weight matrix, its entrywise square, the
  bias and the ratio are read whole at every point. On one tile the stored logits are the samples' logits and the stored
  column is the samples' losses (the negative log-softmax of the augmented logits at the label's class), a label being the
  class it names because the labels lie in 0 … 999. The 16 row blocks tile the two output arrays, so after the run the
  logits array is `logitsArr` and the loss column holds every sample's loss; the operations after the kernel sum that
  column from zero and divide by the count, which is `lossArr`.
-/
import proofs.«419979_j506806141617_1_alg».proof.Proof.Gen.KernelIdeal.Frame
import proofs.«419979_j506806141617_1_alg».proof.Proof.KernelPieces
import proofs.«419979_j506806141617_1_alg».proof.Proof.KernelNll
import proofs.«419979_j506806141617_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.IdealHost
import Idealize.ShloMosaic.PureOps.Ideal.Laws

noncomputable section

namespace Cert.KernelIdeal.RunValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arrays the host wrote before the kernel runs -/

theorem V_v0 (c : Dev nD) : (V m c main_v0 : S1x4096.Idx → BitVec 32) = shapeCast S1x4096 (m ((c : Thread nD τ).loc main_arg1)) shapeCasts_S4096_S1x4096 := by
  show StableHlo.after hostOps0 (fun b => m (c, b)) (Proc.devRef .tc main_v0) = _
  after_results
  rfl

theorem V_v1 (c : Dev nD) : (V m c main_v1 : S1000x2048.Idx → EReal) = truncf (F := Ideal) .bf16 (m ((c : Thread nD τ).loc main_arg4)) bitsLt_bf16_f32 := by
  show StableHlo.after hostOps0 (fun b => m (c, b)) (Proc.devRef .tc main_v1) = _
  after_results

theorem V_v3 (c : Dev nD) : (V m c main_v3 : S1000x2048.Idx → EReal) = truncf (F := Ideal) .bf16 (mulf (m ((c : Thread nD τ).loc main_arg4)) (m ((c : Thread nD τ).loc main_arg4))) bitsLt_bf16_f32 := by
  show StableHlo.after hostOps0 (fun b => m (c, b)) (Proc.devRef .tc main_v3) = _
  after_results

theorem V_v4 (c : Dev nD) : (V m c main_v4 : S1x1000.Idx → EReal) = shapeCast S1x1000 (m ((c : Thread nD τ).loc main_arg5)) shapeCasts_S1000_S1x1000 := by
  show StableHlo.after hostOps0 (fun b => m (c, b)) (Proc.devRef .tc main_v4) = _
  after_results
  rfl

theorem V_v5 (c : Dev nD) : (V m c main_v5 : S1x1.Idx → EReal) = shapeCast S1x1 (m ((c : Thread nD τ).loc main_arg3)) shapeCasts_S_S1x1 := by
  show StableHlo.after hostOps0 (fun b => m (c, b)) (Proc.devRef .tc main_v5) = _
  after_results
  rfl

/-! ## The argument arrays of core c, at their literal types -/

abbrev a0 (c : Dev nD) : S4096x2048.Idx → EReal := m ((c : Thread nD τ).loc main_arg0)
abbrev a1 (c : Dev nD) : S4096.Idx → BitVec 32 := m ((c : Thread nD τ).loc main_arg1)
abbrev a2 (c : Dev nD) : S4096x2048.Idx → EReal := m ((c : Thread nD τ).loc main_arg2)
abbrev a3 (c : Dev nD) : S_.Idx → EReal := m ((c : Thread nD τ).loc main_arg3)
abbrev a4 (c : Dev nD) : S1000x2048.Idx → EReal := m ((c : Thread nD τ).loc main_arg4)
abbrev a5 (c : Dev nD) : S1000.Idx → EReal := m ((c : Thread nD τ).loc main_arg5)

/-! ## The grid: 16 points, point t working on samples 256·t … 256·t + 255 -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

theorem tN (t : Fin cfg0.N) : t.val < 16 := by have := t.isLt; have h : cfg0.N = 16 := N_0; omega

/-- Sample number 256·t + p. -/
abbrev smp (t : Fin cfg0.N) (p : Fin 256) : Fin 4096 := ⟨t.val * 256 + p.val, by have := tN t; omega⟩

/-! ## The input blocks at point t, at their literal types, read at an index -/

abbrev b0 (c : Dev nD) (t : Fin cfg0.N) : Vec Ideal S256x2048 .f32 := iblk m c 0 t
abbrev b1 (c : Dev nD) (t : Fin cfg0.N) : Vec Ideal S256x2048 .f32 := iblk m c 1 t
abbrev b2 (c : Dev nD) (t : Fin cfg0.N) : Vec Ideal S1x256 .i32 := iblk m c 2 t
abbrev b3 (c : Dev nD) (t : Fin cfg0.N) : Vec Ideal S1000x2048 .bf16 := iblk m c 3 t
abbrev b4 (c : Dev nD) (t : Fin cfg0.N) : Vec Ideal S1000x2048 .bf16 := iblk m c 4 t
abbrev b5 (c : Dev nD) (t : Fin cfg0.N) : Vec Ideal S1x1000 .f32 := iblk m c 5 t
abbrev b6 (c : Dev nD) (t : Fin cfg0.N) : Vec Ideal S1x1 .f32 := iblk m c 6 t

theorem b0_apply (c : Dev nD) (t : Fin cfg0.N) (p : Fin 256) (a : Fin 2048) :
    b0 m c t (ix2 p a) = a0 m c (ix2 (smp t p) a) := by
  show V m c main_arg0 (((cfg0.win 0).blk t).view.emb (ix2 p a)) = _
  rw [V_main_arg0]
  refine congrArg _ (funext fun d => Fin.ext ?_)
  obtain ⟨e0, e1, -⟩ := idx_facts t
  match d with
  | ⟨0, _⟩ => show win0_0.index t (0 : Fin 2) * 256 + 1 * p.val = t.val * 256 + p.val; omega
  | ⟨1, _⟩ => show win0_0.index t (1 : Fin 2) * 2048 + 1 * a.val = a.val; omega

theorem b1_apply (c : Dev nD) (t : Fin cfg0.N) (p : Fin 256) (a : Fin 2048) :
    b1 m c t (ix2 p a) = a2 m c (ix2 (smp t p) a) := by
  show V m c main_arg2 (((cfg0.win 1).blk t).view.emb (ix2 p a)) = _
  rw [V_main_arg2]
  refine congrArg _ (funext fun d => Fin.ext ?_)
  obtain ⟨-, -, e0, e1, -⟩ := idx_facts t
  match d with
  | ⟨0, _⟩ => show win0_1.index t (0 : Fin 2) * 256 + 1 * p.val = t.val * 256 + p.val; omega
  | ⟨1, _⟩ => show win0_1.index t (1 : Fin 2) * 2048 + 1 * a.val = a.val; omega

theorem b2_apply (c : Dev nD) (t : Fin cfg0.N) (p : Fin 256) :
    b2 m c t (ix2 0 p) = a1 m c (ix1 (smp t p)) := by
  show V m c main_v0 (((cfg0.win 2).blk t).view.emb (ix2 0 p)) = _
  rw [V_v0]
  obtain ⟨-, -, -, -, e0, e1, -⟩ := idx_facts t
  have hi : ((cfg0.win 2).blk t).view.emb (ix2 0 p) = ix2 (0 : Fin 1) (smp t p) := by
    funext d; apply Fin.ext
    match d with
    | ⟨0, _⟩ => show win0_2.index t (0 : Fin 2) * 1 + 1 * 0 = 0; omega
    | ⟨1, _⟩ => show win0_2.index t (1 : Fin 2) * 256 + 1 * p.val = t.val * 256 + p.val; omega
  rw [hi]
  exact shapeCast_a_1a_apply _ _ _ _

theorem b3_apply (c : Dev nD) (t : Fin cfg0.N) (k : Fin 1000) (a : Fin 2048) :
    b3 m c t (ix2 k a) = a4 m c (ix2 k a) := by
  show V m c main_v1 (((cfg0.win 3).blk t).view.emb (ix2 k a)) = _
  rw [V_v1]
  obtain ⟨-, -, -, -, -, -, e0, e1, -⟩ := idx_facts t
  have hi : ((cfg0.win 3).blk t).view.emb (ix2 k a) = ix2 k a := by
    funext d; apply Fin.ext
    match d with
    | ⟨0, _⟩ => show win0_3.index t (0 : Fin 2) * 1000 + 1 * k.val = k.val; omega
    | ⟨1, _⟩ => show win0_3.index t (1 : Fin 2) * 2048 + 1 * a.val = a.val; omega
  rw [hi]
  rfl

theorem b4_apply (c : Dev nD) (t : Fin cfg0.N) (k : Fin 1000) (a : Fin 2048) :
    b4 m c t (ix2 k a) = a4 m c (ix2 k a) * a4 m c (ix2 k a) := by
  show V m c main_v3 (((cfg0.win 4).blk t).view.emb (ix2 k a)) = _
  rw [V_v3]
  obtain ⟨-, -, -, -, -, -, -, -, e0, e1, -⟩ := idx_facts t
  have hi : ((cfg0.win 4).blk t).view.emb (ix2 k a) = ix2 k a := by
    funext d; apply Fin.ext
    match d with
    | ⟨0, _⟩ => show win0_4.index t (0 : Fin 2) * 1000 + 1 * k.val = k.val; omega
    | ⟨1, _⟩ => show win0_4.index t (1 : Fin 2) * 2048 + 1 * a.val = a.val; omega
  rw [hi]
  rfl

theorem b5_apply (c : Dev nD) (t : Fin cfg0.N) (k : Fin 1000) :
    b5 m c t (ix2 0 k) = a5 m c (ix1 k) := by
  show V m c main_v4 (((cfg0.win 5).blk t).view.emb (ix2 0 k)) = _
  rw [V_v4]
  obtain ⟨-, -, -, -, -, -, -, -, -, -, e0, e1, -⟩ := idx_facts t
  have hi : ((cfg0.win 5).blk t).view.emb (ix2 0 k) = ix2 (0 : Fin 1) k := by
    funext d; apply Fin.ext
    match d with
    | ⟨0, _⟩ => show win0_5.index t (0 : Fin 2) * 1 + 1 * 0 = 0; omega
    | ⟨1, _⟩ => show win0_5.index t (1 : Fin 2) * 1000 + 1 * k.val = k.val; omega
  rw [hi]
  exact shapeCast_a_1a_apply _ _ _ _

theorem b6_apply (c : Dev nD) (t : Fin cfg0.N) :
    b6 m c t (ix2 0 0) = a3 m c ix0 := by
  show V m c main_v5 (((cfg0.win 6).blk t).view.emb (ix2 0 0)) = _
  rw [V_v5]
  exact shapeCast_apply _ _ _ _ (by rw [Shape.rowMajor_val_two]; rfl)

/-! ## One tile: the body's two stored values in the specification's terms -/

section Tile

open Cert.KernelIdeal.Tile

/-- The stored logits of a tile: entry (p, q) is sample p's class-q logit. -/
theorem logits_tile (x0 : Vec Ideal S256x2048 .f32) (x3 : Vec Ideal S1000x2048 .bf16) (x5 : Vec Ideal S1x1000 .f32)
    (p : Fin 256) (q : Fin 1000) :
    k0_pay4 (F := Ideal) x0 x3 x5 (ix2 p q) = Spec.logit (Spec.row x3) (fun k => x5 (ix2 0 k)) (Spec.row x0 p) q :=
  logits_apply x0 x3 x5 p q

/-- The stored losses of a tile: entry (p, 0) is sample p's loss, when the label words are the classes `y` and the
    second weight block holds the squares of the first. -/
theorem nll_tile (x0 x1 : Vec Ideal S256x2048 .f32) (x2 : Vec Ideal S1x256 .i32) (x3 x4 : Vec Ideal S1000x2048 .bf16)
    (x5 : Vec Ideal S1x1000 .f32) (x6 : Vec Ideal S1x1 .f32) (y : Fin 256 → Fin 1000)
    (hy : ∀ p, x2 (ix2 0 p) = BitVec.ofNat 32 (y p).val)
    (hsq : ∀ k a, x4 (ix2 k a) = x3 (ix2 k a) * x3 (ix2 k a)) (p : Fin 256) :
    k0_pay1 (F := Ideal) (k0_pay2 x6) (k0_pay4 x0 x3 x5) (k0_pay6 x2) (k0_pay9 x1 x3 x4 x2) (k0_pay10 x1 x3 x2) (ix2 p 0)
      = Spec.nll (Spec.row x3) (fun k => x5 (ix2 0 k)) (x6 (ix2 0 0)) (Spec.row x0 p) (Spec.row x1 p) (y p) := by
  rw [nll_apply (k0_pay2 x6) (k0_pay4 x0 x3 x5) (k0_pay6 x2) (k0_pay9 x1 x3 x4 x2) (k0_pay10 x1 x3 x2) p (y p)
    (fun q => onehot_apply x2 y hy p q)]
  unfold Spec.nll
  refine congrArg (fun g => Spec.nllOf g (y p)) (funext fun q => ?_)
  rw [logits_apply x0 x3 x5 p q, spread_apply x1 x2 x3 x4 y hy hsq p q, own_apply x1 x2 x3 y hy p q]
  have h2 : k0_pay2 (F := Ideal) x6 = x6 (ix2 0 0) := by
    unfold k0_pay2 extractAt
    exact congrArg x6 (funext fun d => Fin.ext (by match d with | ⟨0, _⟩ => rfl | ⟨1, _⟩ => rfl))
  rw [h2]
  rfl

end Tile

/-! ## The labels as classes -/

/-- The labels of core c read as class numbers, given that each label word is one. -/
def cls (c : Dev nD) (hlab : ∀ i, (a1 m c i).toNat < 1000) (n : Fin 4096) : Fin 1000 :=
  ⟨(a1 m c (ix1 n)).toNat, hlab _⟩

theorem cls_spec (c : Dev nD) (hlab : ∀ i, (a1 m c i).toNat < 1000) (n : Fin 4096) :
    a1 m c (ix1 n) = BitVec.ofNat 32 (cls m c hlab n).val := by
  show _ = BitVec.ofNat 32 (a1 m c (ix1 n)).toNat
  exact (BitVec.ofNat_toNat _ _).symm ▸ (BitVec.setWidth_eq _).symm

/-! ## What each point writes back -/

theorem hz : (![0, 0] : Fin 2 → Nat) = fun _ => 0 := funext fun a => by fin_cases a <;> rfl

/-- The losses as a column. -/
def nllCol (c : Dev nD) (y : Fin 4096 → Fin 1000) : S4096x1.Idx → EReal := fun i =>
  Spec.nllArr (a0 m c) y (a2 m c) (a3 m c)
    (a4 m c) (a5 m c) (ix1 (i 0))

theorem out7_apply (c : Dev nD) (t : Fin cfg0.N) (p : Fin 256) (q : Fin 1000) :
    out0_7 (b0 m c t) (b1 m c t) (b2 m c t) (b3 m c t) (b4 m c t) (b5 m c t) (b6 m c t) (ix2 p q)
      = Spec.logitsArr (a0 m c) (a4 m c) (a5 m c) (ix2 (smp t p) q) := by
  unfold out0_7
  rw [View.canon_unit_zero hz]
  simp only [View.ld_unit_zero (S := S256x2048) hz, View.ld_unit_zero (S := S1000x2048) hz, View.ld_unit_zero (S := S1x1000) hz]
  rw [logits_tile]
  unfold Spec.logitsArr Spec.logit
  simp only [b0_apply, b3_apply, b5_apply]

theorem out8_apply (c : Dev nD) (hlab : ∀ i, (a1 m c i).toNat < 1000) (t : Fin cfg0.N) (p : Fin 256) :
    out0_8 (b0 m c t) (b1 m c t) (b2 m c t) (b3 m c t) (b4 m c t) (b5 m c t) (b6 m c t) (ix2 p 0)
      = nllCol m c (cls m c hlab) (ix2 (smp t p) 0) := by
  unfold out0_8
  rw [View.canon_unit_zero hz]
  simp only [View.ld_unit_zero (S := S256x2048) hz, View.ld_unit_zero (S := S1000x2048) hz, View.ld_unit_zero (S := S1x1000) hz,
    View.ld_unit_zero (S := S1x256) hz, View.ld_unit_zero (S := S1x1) hz]
  rw [nll_tile (b0 m c t) (b1 m c t) (b2 m c t) (b3 m c t) (b4 m c t) (b5 m c t) (b6 m c t) (fun p => cls m c hlab (smp t p))
    (fun p => (b2_apply m c t p).trans (cls_spec m c hlab (smp t p)))
    (fun k a => by rw [b4_apply, b3_apply]) p]
  unfold nllCol Spec.nllArr
  rw [b6_apply]
  refine congrArg₂ (fun x v => Spec.nll _ _ _ x v _) (funext fun a => b0_apply m c t p a) (funext fun a => b1_apply m c t p a) |>.trans ?_
  refine congrArg₂ (fun w b => Spec.nll w b _ _ _ _) (funext fun k => funext fun a => b3_apply m c t k a) (funext fun k => b5_apply m c t k)

theorem flushed7_eq (c : Dev nD) (t : Fin cfg0.N) :
    (dats m 0 c).flushed 7 t = ((cfg0.win 7).blk t).view.read (Elt Ideal)
      (Spec.logitsArr (a0 m c) (a4 m c) (a5 m c)) := by
  show (cfg0.win 7).cut (grid0.coords t) ((dats m 0 c).after 7 t) = _
  rw [after0_7]
  funext j
  show out0_7 (b0 m c t) (b1 m c t) (b2 m c t) (b3 m c t) (b4 m c t) (b5 m c t) (b6 m c t) j
    = Spec.logitsArr _ _ _ (((cfg0.win 7).blk t).view.emb j)
  refine (congrArg _ (eq_ix2 j)).trans ((out7_apply m c t (j 0) (j 1)).trans (congrArg _ (funext fun d => Fin.ext ?_)))
  obtain ⟨-, -, -, -, -, -, -, -, -, -, -, -, -, -, e0, e1, -⟩ := idx_facts t
  match d with
  | ⟨0, _⟩ => show t.val * 256 + (j 0).val = win0_7.index t (0 : Fin 2) * 256 + 1 * (j 0).val; omega
  | ⟨1, _⟩ => show (j 1).val = win0_7.index t (1 : Fin 2) * 1000 + 1 * (j 1).val; omega

theorem flushed8_eq (c : Dev nD) (hlab : ∀ i, (a1 m c i).toNat < 1000) (t : Fin cfg0.N) :
    (dats m 0 c).flushed 8 t = ((cfg0.win 8).blk t).view.read (Elt Ideal) (nllCol m c (cls m c hlab)) := by
  show (cfg0.win 8).cut (grid0.coords t) ((dats m 0 c).after 8 t) = _
  rw [after0_8]
  funext j
  show out0_8 (b0 m c t) (b1 m c t) (b2 m c t) (b3 m c t) (b4 m c t) (b5 m c t) (b6 m c t) j
    = nllCol m c (cls m c hlab) (((cfg0.win 8).blk t).view.emb j)
  have h1 : (j 1).val < 1 := (j 1).isLt
  have hj1 : (j 1 : Fin 1) = (0 : Fin 1) := Fin.ext (by show (j 1).val = 0; omega)
  have hj : (j : S256x1.Idx) = ix2 (j 0) (0 : Fin 1) := (eq_ix2 j).trans (congrArg (fun z : Fin 1 => ix2 (j 0) z) hj1)
  refine (congrArg _ hj).trans ((out8_apply m c hlab t (j 0)).trans (congrArg _ (funext fun d => Fin.ext ?_)))
  obtain ⟨-, -, -, -, -, -, -, -, -, -, -, -, -, -, -, -, e0, e1⟩ := idx_facts t
  match d with
  | ⟨0, _⟩ => show t.val * 256 + (j 0).val = win0_8.index t (0 : Fin 2) * 256 + 1 * (j 0).val; omega
  | ⟨1, _⟩ => show 0 = win0_8.index t (1 : Fin 2) * 1 + 1 * (j 1).val; omega

/-! ## The blocks tile the two output arrays -/

theorem mem_blk7 (t : Fin cfg0.N) (i : S4096x1000.Idx) :
    i ∈ ((cfg0.win 7).blk t).view.set ↔ ∀ a : Fin 2, win0_7.index t a * S256x1000.size a ≤ (i a).val ∧ (i a).val < win0_7.index t a * S256x1000.size a + S256x1000.size a := by
  show i ∈ ((View.whole main_v6_0).slice (win0_7.rect t)).set ↔ _
  rw [View.set_slice_whole, Rect.mem_set_unit]
  exact Iff.rfl

theorem mem_blk8 (t : Fin cfg0.N) (i : S4096x1.Idx) :
    i ∈ ((cfg0.win 8).blk t).view.set ↔ ∀ a : Fin 2, win0_8.index t a * S256x1.size a ≤ (i a).val ∧ (i a).val < win0_8.index t a * S256x1.size a + S256x1.size a := by
  show i ∈ ((View.whole main_v6_1).slice (win0_8.rect t)).set ↔ _
  rw [View.set_slice_whole, Rect.mem_set_unit]
  exact Iff.rfl

theorem cover7 (i : S4096x1000.Idx) : ∃ t : Fin cfg0.N, (cfg0.win 7).flush t = true ∧ i ∈ ((cfg0.win 7).blk t).view.set := by
  have hi0 : (i 0).val < 4096 := (i 0).isLt
  have hi1 : (i 1).val < 1000 := (i 1).isLt
  have hN : cfg0.N = 16 := N_0
  let t : Fin cfg0.N := ⟨(i 0).val / 256, by omega⟩
  obtain ⟨-, -, -, -, -, -, -, -, -, -, -, -, -, -, e0, e1, -⟩ := idx_facts t
  refine ⟨t, flush0_7 t, ?_⟩
  rw [mem_blk7]
  intro a
  have ht : t.val = (i 0).val / 256 := rfl
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 1000 ≤ (i 1).val ∧ (i 1).val < win0_7.index t (1 : Fin 2) * 1000 + 1000; omega

theorem cover8 (i : S4096x1.Idx) : ∃ t : Fin cfg0.N, (cfg0.win 8).flush t = true ∧ i ∈ ((cfg0.win 8).blk t).view.set := by
  have hi0 : (i 0).val < 4096 := (i 0).isLt
  have hi1 : (i 1).val < 1 := (i 1).isLt
  have hN : cfg0.N = 16 := N_0
  let t : Fin cfg0.N := ⟨(i 0).val / 256, by omega⟩
  obtain ⟨-, -, -, -, -, -, -, -, -, -, -, -, -, -, -, -, e0, e1⟩ := idx_facts t
  refine ⟨t, flush0_8 t, ?_⟩
  rw [mem_blk8]
  intro a
  have ht : t.val = (i 0).val / 256 := rfl
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 1 ≤ (i 1).val ∧ (i 1).val < win0_8.index t (1 : Fin 2) * 1 + 1; omega

/-- After the run the logits array holds every sample's logits. -/
theorem final7 (c : Dev nD) : (dats m 0 c).arrAt 7 cfg0.N
    = Spec.logitsArr (a0 m c) (a4 m c) (a5 m c) :=
  (dats m 0 c).arrAt_eq_of_cover 7 _ (fun t _ => flushed7_eq m c t) cover7

/-- After the run the loss column holds every sample's loss. -/
theorem final8 (c : Dev nD) (hlab : ∀ i, (a1 m c i).toNat < 1000) :
    (dats m 0 c).arrAt 8 cfg0.N = nllCol m c (cls m c hlab) :=
  (dats m 0 c).arrAt_eq_of_cover 8 _ (fun t _ => flushed8_eq m c hlab t) cover8

/-! ## The host operations after the kernel -/

/-- A column [4096, 1] read as a vector [4096]. -/
theorem sc_col (g : S4096x1.Idx → EReal) (j : S4096.Idx) :
    shapeCast S4096 g shapeCasts_S4096x1_S4096 j = g (ix2 (j 0) 0) :=
  shapeCast_apply g _ j _ (by rw [Shape.rowMajor_val_two, Shape.rowMajor_val_one]; show (j 0).val * 1 + 0 = (j 0).val; omega)

/-- The batch loss the program returns: the loss column summed from zero and divided by the count. -/
theorem loss_value (c : Dev nD) (hlab : ∀ i, (a1 m c i).toNat < 1000) :
    Pipeline.afterTail₀ cfgs (dats m) 0 (V0 m) [hostOps1] c main_v9
      = Spec.lossArr (a0 m c) (cls m c hlab) (a2 m c) (a3 m c) (a4 m c) (a5 m c) := by
  have hw : Pipeline.withArrays (cfgs 0).spec c (V0 m c) (fun w => (dats m 0 c).arrAt w (cfgs 0).N) (Proc.devRef .tc main_v6_1)
      = nllCol m c (cls m c hlab) :=
    (Pipeline.withArrays_arr spec0 launch0.win.arr_inj c _ _ 8).trans (final8 m c hlab)
  unfold Pipeline.afterTail₀
  show StableHlo.after hostOps1 _ (Proc.devRef .tc main_v9) = _
  after_results
  unfold Spec.lossArr
  funext i
  refine (hostDivf_apply _ _ i).trans (congrArg₂ Ideal.div ?_ rfl)
  refine (hostReduceAdd_apply _ _ _ _ i).trans ((Ideal.hostReduceAdd_total _ (fun b => b.elim0) _ _ i).trans ?_)
  refine congrArg₂ (· + ·) rfl (Finset.sum_congr rfl fun j _ => ?_)
  show shapeCast S4096 (Pipeline.withArrays (cfgs 0).spec c (V0 m c) (fun w => (dats m 0 c).arrAt w (cfgs 0).N) (Proc.devRef .tc main_v6_1)) shapeCasts_S4096x1_S4096 j = _
  rw [hw, sc_col]
  unfold nllCol
  exact congrArg _ (eq_ix1 j).symm

/-! ## The run, read -/

/-- Every weakly fair execution of the program terminates with the loss at `lossArr` and the logits at `logitsArr` of the
    arguments (the labels read as classes), the arguments unchanged. -/
theorem run (hlab : ∀ c i, (a1 m c i).toNat < 1000) :
    θ_run defs (onTc (τ := τ) (main (F := Ideal))) ⟨m, fun _ => 0, ρ⟩ fun r => ∀ c : Dev nD,
      r.2.mem ((c.tc : Thread nD τ).loc main_v9) = Spec.lossArr (a0 m c) (cls m c (hlab c)) (a2 m c) (a3 m c) (a4 m c) (a5 m c)
      ∧ r.2.mem ((c.tc : Thread nD τ).loc main_v6_0) = Spec.logitsArr (a0 m c) (a4 m c) (a5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).2 main_v9 (Pipeline.mem_restRefs_of main_v9 (by decide) (by decide))).trans (loss_value m c (hlab c)),
      ((h c).1 7).trans (final7 m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.RunValue

end
-- ==== Proof.RefAug.lean ====
/-
  The reference's first stages in the specification's terms: its logits (a product with the transposed weight matrix plus
  the bias broadcast over the samples) are `logitsArr`, and its augmented logits are `aug` sample by sample — the label's
  weight row is a gather at the label (a label in range is its own wrapped and clamped index), the three variance parts are
  two more products and a row sum, and the sums' zero initial value adds nothing.
-/
import proofs.«419979_j506806141617_1_alg».proof.Proof.RefRead
import proofs.«419979_j506806141617_1_alg».proof.Proof.Spec
import Idealize.ShloMosaic.Lib.ValueIdx
import Idealize.ShloMosaic.PureOps.Ideal.Laws
import Idealize.ShloMosaic.Lib.StableHlo.Predicate

noncomputable section

namespace Cert.ReferenceIdeal.RefValue

open Idealize.ShloMosaic Idealize.ShloMosaic.ValueIdx Cert.ReferenceIdeal Cert.ReferenceIdeal.ReadP

/-! ## The logits -/

private theorem lidx_v1_eq (n : Fin 4096) (k : Fin 1000) (a : Fin 2048) :
    lidx_main_v1 (ix2 n k) a = ix2 n a :=
  funext fun d => Fin.ext (by match d with | ⟨0, _⟩ => rfl | ⟨1, _⟩ => rfl)

private theorem ridx_v1_eq (n : Fin 4096) (k : Fin 1000) (a : Fin 2048) :
    idx_main_v0 (ridx_main_v1 (ix2 n k) a) = ix2 k a :=
  funext fun d => Fin.ext (by match d with | ⟨0, _⟩ => rfl | ⟨1, _⟩ => rfl)

private theorem idx_v3_eq (n : Fin 4096) (k : Fin 1000) :
    idx_main_v2 (idx_main_v3 (ix2 n k)) = ix1 k :=
  funext fun d => Fin.ext (by match d with | ⟨0, _⟩ => rfl)

private theorem v4_at (x0 : (⟨S4096x2048, .f32⟩ : BufTy).Contents (Elt Ideal)) (x4 : (⟨S1000x2048, .f32⟩ : BufTy).Contents (Elt Ideal))
    (x5 : (⟨S1000, .f32⟩ : BufTy).Contents (Elt Ideal)) (n : Fin 4096) (k : Fin 1000) :
    val_main_v4 (F := Ideal) x0 x4 x5 (ix2 n k) = Spec.logit (Spec.row x4) (Spec.vec x5) (Spec.row x0 n) k := by
  rw [val_main_v4_apply, val_main_v1_apply, val_main_v3_apply, val_main_v2_apply, idx_v3_eq]
  unfold Spec.logit
  refine congrArg₂ (· + ·) (Finset.sum_congr rfl fun a _ => ?_) rfl
  rw [val_main_v0_apply, lidx_v1_eq, ridx_v1_eq]

theorem ref_logits (x0 : (⟨S4096x2048, .f32⟩ : BufTy).Contents (Elt Ideal)) (x4 : (⟨S1000x2048, .f32⟩ : BufTy).Contents (Elt Ideal))
    (x5 : (⟨S1000, .f32⟩ : BufTy).Contents (Elt Ideal)) :
    val_main_v4 (F := Ideal) x0 x4 x5 = Spec.logitsArr x0 x4 x5 := by
  funext i
  obtain ⟨n, k, rfl⟩ : ∃ (n : Fin 4096) (k : Fin 1000), i = ix2 n k := ⟨i 0, i 1, eq_ix2 i⟩
  exact v4_at x0 x4 x5 n k

/-! ## The gather at an index -/

open Idealize.ShloMosaic.StableHlo.Predicate in
/-- The weight-row gather read at (n, a): when sample n's start word is the class number c (below 1000, so it is its own
    clamp into [0, 999]), the result is the weight matrix at (c, a). -/
private theorem gather_row {α : Type} (x4 : S1000x2048.Idx → α) (idx : IVec S4096x1 32) (n : Fin 4096) (a : Fin 2048) (c : Fin 1000)
    (h : idx (ix2 n (0 : Fin 1)) = BitVec.ofNat 32 c.val) :
    Host.gather gather_S1000x2048_S4096x1_S4096x2048_1_0_n_n_0_1_12048 x4 idx (ix2 n a) = x4 (ix2 c a) := by
  unfold Host.gather
  congr 1
  funext d
  refine Fin.ext ?_
  match d with
  | ⟨0, _⟩ =>
    show gather_S1000x2048_S4096x1_S4096x2048_1_0_n_n_0_1_12048.start (ix2 n a) idx 0
      + gather_S1000x2048_S4096x1_S4096x2048_1_0_n_n_0_1_12048.batchCoord (ix2 n a) 0
      + gather_S1000x2048_S4096x1_S4096x2048_1_0_n_n_0_1_12048.offCoord (ix2 n a) 0 = c.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000x2048_S4096x1_S4096x2048_1_0_n_n_0_1_12048.startIndexMap from List.mem_singleton.mpr rfl)]
    have hsi : gather_S1000x2048_S4096x1_S4096x2048_1_0_n_n_0_1_12048.siIdx (ix2 n a)
        ⟨List.idxOf (0 : Fin 2) gather_S1000x2048_S4096x1_S4096x2048_1_0_n_n_0_1_12048.startIndexMap,
          List.idxOf_lt_length_iff.2 (List.mem_singleton.mpr rfl)⟩ = ix2 n (0 : Fin 1) := by
      funext b; refine Fin.ext ?_
      match b with
      | ⟨0, _⟩ => rfl
      | ⟨1, _⟩ => rfl
    rw [hsi, h]
    show min (BitVec.ofNat 32 c.val).toInt.toNat (1000 - 1) = c.val
    rw [toInt_ofNat_small c.val (by have := c.isLt; omega)]
    have := c.isLt
    simp only [Int.toNat_natCast]
    omega
  | ⟨1, _⟩ =>
    show gather_S1000x2048_S4096x1_S4096x2048_1_0_n_n_0_1_12048.start (ix2 n a) idx 1
      + gather_S1000x2048_S4096x1_S4096x2048_1_0_n_n_0_1_12048.batchCoord (ix2 n a) 1
      + gather_S1000x2048_S4096x1_S4096x2048_1_0_n_n_0_1_12048.offCoord (ix2 n a) 1 = a.val
    rw [GatherDims.batchCoord_eq_zero _ _ _ List.not_mem_nil]
    unfold GatherDims.start
    rw [dif_neg (show ¬ (1 : Fin 2) ∈ gather_S1000x2048_S4096x1_S4096x2048_1_0_n_n_0_1_12048.startIndexMap by decide)]
    simp only [Nat.add_zero, Nat.zero_add]
    rfl

/-! ## The label's weight row -/

private theorem idx_v10_eq (n : Fin 4096) : idx_main_v10 (ix2 n (0 : Fin 1)) = ix1 n :=
  funext fun d => Fin.ext (by match d with | ⟨0, _⟩ => rfl)

open Idealize.ShloMosaic.StableHlo.Predicate in
/-- A class number below 1000, as a 32-bit word, is not negative as a signed word, so the wrap-around of negative labels
    leaves it alone: the start-index column holds the label word itself. -/
private theorem v10_at (x1 : (⟨S4096, .i32⟩ : BufTy).Contents (Elt Ideal)) (y : Fin 4096 → Fin 1000) (hy : ∀ n, x1 (ix1 n) = BitVec.ofNat 32 (y n).val) (n : Fin 4096) :
    val_main_v10 (F := Ideal) x1 (ix2 n (0 : Fin 1)) = BitVec.ofNat 32 (y n).val := by
  have hlt : (BitVec.ofNat 32 (y n).val).toNat < 2 ^ 31 := by
    rw [BitVec.toNat_ofNat]; have := (y n).isLt; omega
  have hc : IntOp.cmpi .slt (BitVec.ofNat 32 (y n).val) 0#32 = 0#1 :=
    eq_zero_of_ne_one fun h1 => by
      have h2 := (slt_iff_toNat hlt (by decide)).mp h1
      exact absurd h2 (by simp)
  rw [val_main_v10_apply, idx_v10_eq, val_main_v9_apply, val_main_v6_apply, val_main_v5_apply, val_main_c_apply, hy n, hc,
    select_zero]

/-- The gathered row: entry (n, a) is the weight matrix at (y n, a). -/
private theorem v11_at (x1 : (⟨S4096, .i32⟩ : BufTy).Contents (Elt Ideal)) (x4 : (⟨S1000x2048, .f32⟩ : BufTy).Contents (Elt Ideal)) (y : Fin 4096 → Fin 1000) (hy : ∀ n, x1 (ix1 n) = BitVec.ofNat 32 (y n).val) (n : Fin 4096) (a : Fin 2048) :
    val_main_v11 (F := Ideal) x1 x4 (ix2 n a) = x4 (ix2 (y n) a) := by
  unfold val_main_v11
  exact gather_row x4 (val_main_v10 (F := Ideal) x1) n a (y n) (v10_at x1 y hy n)

/-! ## The three variance parts -/

private theorem lidx_v14_eq (n : Fin 4096) (k : Fin 1000) (a : Fin 2048) :
    lidx_main_v14 (ix2 n k) a = ix2 n a :=
  funext fun d => Fin.ext (by match d with | ⟨0, _⟩ => rfl | ⟨1, _⟩ => rfl)

private theorem ridx_v14_eq (n : Fin 4096) (k : Fin 1000) (a : Fin 2048) :
    idx_main_v13 (ridx_main_v14 (ix2 n k) a) = ix2 k a :=
  funext fun d => Fin.ext (by match d with | ⟨0, _⟩ => rfl | ⟨1, _⟩ => rfl)

private theorem v14_at (x2 : (⟨S4096x2048, .f32⟩ : BufTy).Contents (Elt Ideal)) (x4 : (⟨S1000x2048, .f32⟩ : BufTy).Contents (Elt Ideal)) (n : Fin 4096) (k : Fin 1000) :
    val_main_v14 (F := Ideal) x2 x4 (ix2 n k) = Spec.quad (Spec.row x4) (Spec.row x2 n) k := by
  rw [val_main_v14_apply]
  unfold Spec.quad
  refine Finset.sum_congr rfl fun a _ => ?_
  rw [val_main_v13_apply, val_main_v12_apply, lidx_v14_eq, ridx_v14_eq]
  rfl

private theorem lidx_v17_eq (n : Fin 4096) (k : Fin 1000) (a : Fin 2048) :
    lidx_main_v17 (ix2 n k) a = ix2 n a :=
  funext fun d => Fin.ext (by match d with | ⟨0, _⟩ => rfl | ⟨1, _⟩ => rfl)

private theorem ridx_v17_eq (n : Fin 4096) (k : Fin 1000) (a : Fin 2048) :
    idx_main_v16 (ridx_main_v17 (ix2 n k) a) = ix2 k a :=
  funext fun d => Fin.ext (by match d with | ⟨0, _⟩ => rfl | ⟨1, _⟩ => rfl)

private theorem v17_at (x1 : (⟨S4096, .i32⟩ : BufTy).Contents (Elt Ideal)) (x2 : (⟨S4096x2048, .f32⟩ : BufTy).Contents (Elt Ideal)) (x4 : (⟨S1000x2048, .f32⟩ : BufTy).Contents (Elt Ideal)) (y : Fin 4096 → Fin 1000) (hy : ∀ n, x1 (ix1 n) = BitVec.ofNat 32 (y n).val) (n : Fin 4096) (k : Fin 1000) :
    val_main_v17 (F := Ideal) x1 x2 x4 (ix2 n k) = Spec.cross (Spec.row x4) (Spec.row x2 n) (y n) k := by
  rw [val_main_v17_apply]
  unfold Spec.cross
  refine Finset.sum_congr rfl fun a _ => ?_
  rw [val_main_v16_apply, val_main_v15_apply, lidx_v17_eq, ridx_v17_eq, v11_at x1 x4 y hy]
  rfl

private theorem idx_v20_eq (n : Fin 4096) (a : Fin 2048) : idx_main_v20 (ix1 n) a = ix2 n a :=
  funext fun d => Fin.ext (by match d with | ⟨0, _⟩ => rfl | ⟨1, _⟩ => rfl)

/-- The row sum of (Wy·Wy)·v from the zero word is ∑ₐ w y a · (v a · w y a): the zero word is 0, and the products agree
    by associativity and commutativity of the extended reals' multiplication. -/
private theorem v20_at (x1 : (⟨S4096, .i32⟩ : BufTy).Contents (Elt Ideal)) (x2 : (⟨S4096x2048, .f32⟩ : BufTy).Contents (Elt Ideal)) (x4 : (⟨S1000x2048, .f32⟩ : BufTy).Contents (Elt Ideal)) (y : Fin 4096 → Fin 1000) (hy : ∀ n, x1 (ix1 n) = BitVec.ofNat 32 (y n).val) (n : Fin 4096) :
    val_main_v20 (F := Ideal) x1 x2 x4 (ix1 n) = Spec.own (Spec.row x4) (Spec.row x2 n) (y n) := by
  rw [val_main_v20_apply, val_main_cst_apply, Ideal.ofBits_def, Ideal.ofBits_zero_f32, zero_add]
  unfold Spec.own
  refine Finset.sum_congr rfl fun a _ => ?_
  rw [val_main_v19_apply, val_main_v18_apply, idx_v20_eq, v11_at x1 x4 y hy]
  show x4 (ix2 (y n) a) * x4 (ix2 (y n) a) * x2 (ix2 n a) = x4 (ix2 (y n) a) * (x2 (ix2 n a) * x4 (ix2 (y n) a))
  rw [mul_assoc, mul_comm (x4 (ix2 (y n) a)) (x2 (ix2 n a))]

private theorem idx_v25_eq (n : Fin 4096) (k : Fin 1000) : idx_main_v21 (idx_main_v25 (ix2 n k)) = ix1 n :=
  funext fun d => Fin.ext (by match d with | ⟨0, _⟩ => rfl)

private theorem v25_at (x1 : (⟨S4096, .i32⟩ : BufTy).Contents (Elt Ideal)) (x2 : (⟨S4096x2048, .f32⟩ : BufTy).Contents (Elt Ideal)) (x4 : (⟨S1000x2048, .f32⟩ : BufTy).Contents (Elt Ideal)) (y : Fin 4096 → Fin 1000) (hy : ∀ n, x1 (ix1 n) = BitVec.ofNat 32 (y n).val) (n : Fin 4096) (k : Fin 1000) :
    val_main_v25 (F := Ideal) x1 x2 x4 (ix2 n k) = Spec.own (Spec.row x4) (Spec.row x2 n) (y n) := by
  rw [val_main_v25_apply, val_main_v21_apply, idx_v25_eq, v20_at x1 x2 x4 y hy]

/-! ## The augmented logit -/

theorem ref_aug (x0 : (⟨S4096x2048, .f32⟩ : BufTy).Contents (Elt Ideal)) (x1 : (⟨S4096, .i32⟩ : BufTy).Contents (Elt Ideal))
    (x2 : (⟨S4096x2048, .f32⟩ : BufTy).Contents (Elt Ideal)) (x3 : (⟨S_, .f32⟩ : BufTy).Contents (Elt Ideal))
    (x4 : (⟨S1000x2048, .f32⟩ : BufTy).Contents (Elt Ideal)) (x5 : (⟨S1000, .f32⟩ : BufTy).Contents (Elt Ideal))
    (y : Fin 4096 → Fin 1000) (hy : ∀ n, x1 (ix1 n) = BitVec.ofNat 32 (y n).val) (n : Fin 4096) (k : Fin 1000) :
    val_main_v31 (F := Ideal) x0 x1 x2 x3 x4 x5 (ix2 n k)
      = Spec.aug (Spec.row x4) (Spec.vec x5) (x3 ix0) (Spec.row x0 n) (Spec.row x2 n) (y n) k := by
  rw [val_main_v31_apply, val_main_v30_apply, val_main_v29_apply, val_main_cst_2_apply, val_main_v28_apply,
    val_main_v27_apply, val_main_v26_apply, val_main_v24_apply, val_main_v23_apply, val_main_v22_apply,
    val_main_cst_1_apply, v4_at, v14_at, v17_at x1 x2 x4 y hy, v25_at x1 x2 x4 y hy]
  rfl

end Cert.ReferenceIdeal.RefValue

end
-- ==== Proof.RefLoss.lean ====
/-
  The reference's last stages in the specification's terms: from the augmented logits g, sample n's entry is the log-softmax
  of its row, (g − max) − log ∑ exp (g − max), taken at the sample's label (a label in range passes the range test and is its
  own wrapped index), negated; these are summed from zero and divided by the count. For real scores that negated entry is
  log-sum-exp minus the score, the specification's `nllOf`.
-/
import proofs.«419979_j506806141617_1_alg».proof.Proof.RefRead
import proofs.«419979_j506806141617_1_alg».proof.Proof.Spec
import proofs.«419979_j506806141617_1_alg».proof.Proof.SpecReal
import Idealize.ShloMosaic.Lib.ValueIdx
import Idealize.ShloMosaic.PureOps.Ideal.Laws
import Idealize.ShloMosaic.PureOps.Reduce
import Idealize.ShloMosaic.Lib.StableHlo.Predicate
import Idealize.ShloMosaic.Lib.Affine

noncomputable section

namespace Cert.ReferenceIdeal.RefValue

open Idealize.ShloMosaic Idealize.ShloMosaic.ValueIdx Cert.ReferenceIdeal Cert.ReferenceIdeal.ReadP

section Stages

variable (x0 : (⟨S4096x2048, .f32⟩ : BufTy).Contents (Elt Ideal)) (x1 : (⟨S4096, .i32⟩ : BufTy).Contents (Elt Ideal))
    (x2 : (⟨S4096x2048, .f32⟩ : BufTy).Contents (Elt Ideal)) (x3 : (⟨S_, .f32⟩ : BufTy).Contents (Elt Ideal))
    (x4 : (⟨S1000x2048, .f32⟩ : BufTy).Contents (Elt Ideal)) (x5 : (⟨S1000, .f32⟩ : BufTy).Contents (Elt Ideal))
    (y : Fin 4096 → Fin 1000) (g : Fin 4096 → Fin 1000 → EReal)

/-- The row maximum at sample n: a maximum from −∞ over the classes of the augmented logits. -/
private theorem rowmax_at (hg : ∀ n k, val_main_v31 (F := Ideal) x0 x1 x2 x3 x4 x5 (ix2 n k) = g n k) (n : Fin 4096) :
    val_main_call0_v0 (F := Ideal) x0 x1 x2 x3 x4 x5 (ix1 n) = Spec.topOf (g n) := by
  unfold val_main_call0_v0
  rw [Host.reduce_eq_fold_single FloatOps.maximumf _ _ Gen.reducesTo_S4096x1000_S4096_d1 (by decide) Gen.h_S_]
  unfold Spec.topOf
  have hrow : (val_main_v31 (F := Ideal) x0 x1 x2 x3 x4 x5 ∘ (by decide : S4096x1000.Reduces [1] S4096).lift (ix1 n)) = g n := by
    funext k
    show val_main_v31 (F := Ideal) x0 x1 x2 x3 x4 x5 _ = g n k
    rw [← hg n k]
    exact congrArg _ (funext fun a => Fin.ext (by match a with | ⟨0, _⟩ => rfl | ⟨1, _⟩ => rfl))
  rw [hrow]
  rfl

/-- The maximum broadcast back over the classes (and taken once more against −∞) is still the row's top. -/
private theorem shift_at (hg : ∀ n k, val_main_v31 (F := Ideal) x0 x1 x2 x3 x4 x5 (ix2 n k) = g n k) (n : Fin 4096) (k : Fin 1000) :
    val_main_call0_v4 (F := Ideal) x0 x1 x2 x3 x4 x5 (ix2 n k) = Spec.topOf (g n) := by
  rw [val_main_call0_v4_apply, val_main_call0_v3_apply, val_main_call0_v2_apply]
  have hi : idx_main_call0_v3 (idx_main_call0_v4 (ix2 n k)) = ix1 n :=
    funext fun a => Fin.ext (by match a with | ⟨0, _⟩ => rfl)
  rw [hi, rowmax_at x0 x1 x2 x3 x4 x5 g hg n, val_main_call0_v1_apply, val_main_call0_cst_0_apply]
  exact Spec.max_negInf_topOf (g n)

/-- Scores shifted by the row's top. -/
private theorem shifted_at (hg : ∀ n k, val_main_v31 (F := Ideal) x0 x1 x2 x3 x4 x5 (ix2 n k) = g n k) (n : Fin 4096) (k : Fin 1000) :
    val_main_call0_v5 (F := Ideal) x0 x1 x2 x3 x4 x5 (ix2 n k) = g n k - Spec.topOf (g n) := by
  rw [val_main_call0_v5_apply, hg n k, shift_at x0 x1 x2 x3 x4 x5 g hg n k]
  rfl

/-- The row's mass: the sum over the classes of exp of the shifted scores (the sum's zero initial value adds nothing). -/
private theorem mass_at (hg : ∀ n k, val_main_v31 (F := Ideal) x0 x1 x2 x3 x4 x5 (ix2 n k) = g n k) (n : Fin 4096) :
    val_main_call0_v7 (F := Ideal) x0 x1 x2 x3 x4 x5 (ix1 n) = Spec.massOf (g n) := by
  rw [val_main_call0_v7_apply, val_main_call0_cst_1_apply]
  unfold Spec.massOf
  refine (congrArg (· + _) Ideal.ofBits_zero_f32).trans ((zero_add _).trans (Finset.sum_congr rfl fun k _ => ?_))
  have hi : idx_main_call0_v7 (ix1 n) k = ix2 n k :=
    funext fun a => Fin.ext (by match a with | ⟨0, _⟩ => rfl | ⟨1, _⟩ => rfl)
  rw [hi, val_main_call0_v6_apply, shifted_at x0 x1 x2 x3 x4 x5 g hg n k]
  rfl

/-- The logarithm of the mass, broadcast over the classes. -/
private theorem logmass_at (hg : ∀ n k, val_main_v31 (F := Ideal) x0 x1 x2 x3 x4 x5 (ix2 n k) = g n k) (n : Fin 4096) (k : Fin 1000) :
    val_main_call0_v10 (F := Ideal) x0 x1 x2 x3 x4 x5 (ix2 n k) = Ideal.log (Spec.massOf (g n)) := by
  rw [val_main_call0_v10_apply, val_main_call0_v9_apply, val_main_call0_v8_apply]
  have hi : idx_main_call0_v8 (idx_main_call0_v10 (ix2 n k)) = ix1 n :=
    funext fun a => Fin.ext (by match a with | ⟨0, _⟩ => rfl)
  rw [hi, mass_at x0 x1 x2 x3 x4 x5 g hg n]
  rfl

/-- The log-softmax entry (n, k): the shifted score minus the logarithm of the mass. -/
private theorem logsoftmax_at (hg : ∀ n k, val_main_v31 (F := Ideal) x0 x1 x2 x3 x4 x5 (ix2 n k) = g n k) (n : Fin 4096) (k : Fin 1000) :
    val_main_v32 (F := Ideal) x0 x1 x2 x3 x4 x5 (ix2 n k) = (g n k - Spec.topOf (g n)) - Ideal.log (Spec.massOf (g n)) := by
  rw [val_main_v32_apply, shifted_at x0 x1 x2 x3 x4 x5 g hg n k, logmass_at x0 x1 x2 x3 x4 x5 g hg n k]
  rfl

/-- The labels as a column. -/
private theorem labelcol_at (n : Fin 4096) : val_main_v33 (F := Ideal) x1 (ix2 n (0 : Fin 1)) = x1 (ix1 n) := by
  rw [val_main_v33_apply]
  exact congrArg x1 (funext fun a => Fin.ext (by match a with | ⟨0, _⟩ => rfl))

/-- A class number is below 2³¹ as a word. -/
private theorem label_toNat (c : Fin 1000) : (BitVec.ofNat 32 c.val).toNat = c.val := by
  rw [BitVec.toNat_ofNat]; exact Nat.mod_eq_of_lt (by have := c.isLt; omega)

/-- A class number is not negative as a signed word, so the wrap-around leaves it alone. -/
private theorem wrapped_at (hy : ∀ n, x1 (ix1 n) = BitVec.ofNat 32 (y n).val) (n : Fin 4096) :
    val_main_call1_v4 (F := Ideal) x1 (ix2 n (0 : Fin 1)) = BitVec.ofNat 32 (y n).val := by
  rw [val_main_call1_v4_apply, val_main_call1_v1_apply, val_main_call1_v0_apply, val_main_call1_c_apply,
    labelcol_at x1 n, hy n]
  have h0 : IntOp.cmpi .slt (BitVec.ofNat 32 (y n).val) 0#32 = 0#1 := by
    refine eq_zero_of_ne_one fun h => ?_
    have := (StableHlo.Predicate.slt_iff_toNat (a := BitVec.ofNat 32 (y n).val) (b := 0#32)
      (by rw [label_toNat]; have := (y n).isLt; omega) (by decide)).mp h
    simp at this
  rw [h0]
  exact select_zero _ _

/-- The same after the reshape to [4096, 1, 1]. -/
private theorem startidx_at (hy : ∀ n, x1 (ix1 n) = BitVec.ofNat 32 (y n).val) (n : Fin 4096) :
    val_main_call1_v5 (F := Ideal) x1 (ix3 n (0 : Fin 1) (0 : Fin 1)) = BitVec.ofNat 32 (y n).val := by
  rw [val_main_call1_v5_apply]
  have hi : idx_main_call1_v5 (ix3 n (0 : Fin 1) (0 : Fin 1)) = ix2 n (0 : Fin 1) :=
    funext fun a => Fin.ext (by
      match a with
      | ⟨0, _⟩ => show ((n.val * 1 + 0) * 1 + 0) / 1 = n.val; omega
      | ⟨1, _⟩ => rfl)
  rw [hi]
  exact wrapped_at x1 y hy n

/-- A fold over a one-point index set has one term. -/
private theorem fold_fin_one {α : Type} (op : α → α → α) [Std.Commutative op] [Std.Associative op] (b : α) (f : Fin 1 → α) :
    (Finset.univ : Finset (Fin 1)).fold op b f = op (f 0) b := by
  rw [show (Finset.univ : Finset (Fin 1)) = {0} from rfl]
  exact Finset.fold_singleton

/-- A class number lies in [0, 999], so the range test passes. -/
private theorem mask_at (hy : ∀ n, x1 (ix1 n) = BitVec.ofNat 32 (y n).val) (n : Fin 4096) :
    val_main_call1_v12 (F := Ideal) x1 (ix2 n (0 : Fin 1)) = 1#1 := by
  unfold val_main_call1_v12
  rw [Host.reduce_eq_fold_single IntOp.andi _ _ Gen.reducesTo_S4096x1x1_S4096x1_d2 (by decide) Gen.h_S_]
  refine (fold_fin_one IntOp.andi _ _).trans ?_
  have hl : (by decide : S4096x1x1.Reduces [2] S4096x1).lift (ix2 n (0 : Fin 1)) (0 : Fin 1) = ix3 n (0 : Fin 1) (0 : Fin 1) :=
    funext fun a => Fin.ext (by match a with | ⟨0, _⟩ => rfl | ⟨1, _⟩ => rfl | ⟨2, _⟩ => rfl)
  have hlt : (BitVec.ofNat 32 (y n).val).toNat < 2 ^ 31 := by rw [label_toNat]; have := (y n).isLt; omega
  refine IntOp.andi_eq_one.mpr ⟨?_, rfl⟩
  show val_main_call1_v11 (F := Ideal) x1 _ = 1#1
  rw [hl, val_main_call1_v11_apply, val_main_call1_v7_apply, val_main_call1_v10_apply, startidx_at x1 y hy n,
    val_main_call1_v6_apply, val_main_call1_c_2_apply, val_main_call1_v9_apply, val_main_call1_v8_apply,
    val_main_call1_c_1_apply]
  refine IntOp.andi_eq_one.mpr ⟨?_, ?_⟩
  · exact (StableHlo.Predicate.sge_iff_toNat hlt (by decide)).mpr (Nat.zero_le _)
  · refine (StableHlo.Predicate.sle_iff_toNat hlt (by decide)).mpr ?_
    rw [label_toNat]; have := (y n).isLt; show (y n).val ≤ 999; omega

/-- On the batching axis the gather reads the result's own row. -/
private theorem gather_axis0 (idx : IVec S4096x1x1 32) (n : Fin 4096) :
    (gather_S4096x1000_S4096x1x1_S4096x1_n_1_0_0_1_2_11.operandIdx (ix2 n (0 : Fin 1)) idx 0).val = n.val := by
  show gather_S4096x1000_S4096x1x1_S4096x1_n_1_0_0_1_2_11.start (ix2 n (0 : Fin 1)) idx 0
    + gather_S4096x1000_S4096x1x1_S4096x1_n_1_0_0_1_2_11.batchCoord (ix2 n (0 : Fin 1)) 0
    + gather_S4096x1000_S4096x1x1_S4096x1_n_1_0_0_1_2_11.offCoord (ix2 n (0 : Fin 1)) 0 = n.val
  rw [GatherDims.start_batching _ _ _ _ (List.mem_singleton.mpr rfl),
    GatherDims.offCoord_eq_zero _ _ _ (fun h => ((GatherDims.mem_sKept _ _).mp h).2 (List.mem_singleton.mpr rfl))]
  simp only [Nat.zero_add, Nat.add_zero]
  unfold GatherDims.batchCoord
  rw [dif_pos (show (0 : Fin S4096x1000.rank) ∈ gather_S4096x1000_S4096x1x1_S4096x1_n_1_0_0_1_2_11.operandBatchingDims
    from List.mem_singleton.mpr rfl)]
  rfl

/-- On the class axis the gather reads the start index at (n, 0, 0), as a signed number clamped into [0, 999]. -/
private theorem gather_axis1 (idx : IVec S4096x1x1 32) (n : Fin 4096) :
    (gather_S4096x1000_S4096x1x1_S4096x1_n_1_0_0_1_2_11.operandIdx (ix2 n (0 : Fin 1)) idx 1).val
      = min (idx (ix3 n (0 : Fin 1) (0 : Fin 1))).toInt.toNat 999 := by
  show gather_S4096x1000_S4096x1x1_S4096x1_n_1_0_0_1_2_11.start (ix2 n (0 : Fin 1)) idx 1
    + gather_S4096x1000_S4096x1x1_S4096x1_n_1_0_0_1_2_11.batchCoord (ix2 n (0 : Fin 1)) 1
    + gather_S4096x1000_S4096x1x1_S4096x1_n_1_0_0_1_2_11.offCoord (ix2 n (0 : Fin 1)) 1 = _
  rw [GatherDims.batchCoord_eq_zero _ _ _ (by decide),
    GatherDims.offCoord_eq_zero _ _ _ (fun h => ((GatherDims.mem_sKept _ _).mp h).1 (List.mem_singleton.mpr rfl))]
  simp only [Nat.add_zero]
  unfold GatherDims.start
  rw [dif_pos (show (1 : Fin S4096x1000.rank) ∈ gather_S4096x1000_S4096x1x1_S4096x1_n_1_0_0_1_2_11.startIndexMap
    from List.mem_singleton.mpr rfl)]
  have hsi : gather_S4096x1000_S4096x1x1_S4096x1_n_1_0_0_1_2_11.siIdx (ix2 n (0 : Fin 1))
      ⟨List.idxOf (1 : Fin S4096x1000.rank) gather_S4096x1000_S4096x1x1_S4096x1_n_1_0_0_1_2_11.startIndexMap,
        List.idxOf_lt_length_iff.2 (List.mem_singleton.mpr rfl)⟩ = ix3 n (0 : Fin 1) (0 : Fin 1) := by
    funext b; refine Fin.ext ?_
    match b with
    | ⟨0, _⟩ => rfl
    | ⟨1, _⟩ => rfl
    | ⟨2, _⟩ => rfl
  rw [hsi]
  rfl

/-- The gathered entry of sample n is the log-softmax stage at (n, label n): a class number is its own clamp into [0, 999]. -/
private theorem gathered_at (hy : ∀ n, x1 (ix1 n) = BitVec.ofNat 32 (y n).val) (n : Fin 4096) :
    val_main_call1_v13 (F := Ideal) x0 x1 x2 x3 x4 x5 (ix2 n (0 : Fin 1))
      = val_main_v32 (F := Ideal) x0 x1 x2 x3 x4 x5 (ix2 n (y n)) := by
  unfold val_main_call1_v13 Host.gather
  refine congrArg (val_main_v32 (F := Ideal) x0 x1 x2 x3 x4 x5) (funext fun a => Fin.ext ?_)
  match a with
  | ⟨0, _⟩ => exact gather_axis0 _ n
  | ⟨1, _⟩ =>
    refine (gather_axis1 _ n).trans ?_
    rw [startidx_at x1 y hy n, StableHlo.Predicate.toInt_ofNat_small _ (by have := (y n).isLt; omega), Int.toNat_natCast]
    show min (y n).val 999 = (y n).val
    have := (y n).isLt; omega

/-- Sample n's entry after the range test: the log-softmax at its label. -/
private theorem taken_at (hy : ∀ n, x1 (ix1 n) = BitVec.ofNat 32 (y n).val) (n : Fin 4096) :
    val_main_v34 (F := Ideal) x0 x1 x2 x3 x4 x5 (ix2 n (0 : Fin 1))
      = val_main_v32 (F := Ideal) x0 x1 x2 x3 x4 x5 (ix2 n (y n)) := by
  rw [val_main_v34_apply, mask_at x1 y hy n, gathered_at x0 x1 x2 x3 x4 x5 y hy n]
  exact select_one _ _

/-- Sample n's loss: the negated log-softmax at its label is log-sum-exp minus the label's score. -/
private theorem negated_at (hy : ∀ n, x1 (ix1 n) = BitVec.ofNat 32 (y n).val)
    (hg : ∀ n k, val_main_v31 (F := Ideal) x0 x1 x2 x3 x4 x5 (ix2 n k) = g n k) (hreal : ∀ n k, Spec.IsReal (g n k))
    (n : Fin 4096) :
    val_main_v36 (F := Ideal) x0 x1 x2 x3 x4 x5 (ix1 n) = Spec.nllOf (g n) (y n) := by
  rw [val_main_v36_apply, val_main_v35_apply]
  have hi : idx_main_v35 (ix1 n) = ix2 n (0 : Fin 1) :=
    funext fun a => Fin.ext (by
      match a with
      | ⟨0, _⟩ => show n.val / 1 = n.val; omega
      | ⟨1, _⟩ => rfl)
  rw [hi, taken_at x0 x1 x2 x3 x4 x5 y hy n, logsoftmax_at x0 x1 x2 x3 x4 x5 g hg n (y n)]
  exact Spec.neg_logSoftmax (g n) (hreal n) (y n)

end Stages

theorem ref_loss (x0 : (⟨S4096x2048, .f32⟩ : BufTy).Contents (Elt Ideal)) (x1 : (⟨S4096, .i32⟩ : BufTy).Contents (Elt Ideal))
    (x2 : (⟨S4096x2048, .f32⟩ : BufTy).Contents (Elt Ideal)) (x3 : (⟨S_, .f32⟩ : BufTy).Contents (Elt Ideal))
    (x4 : (⟨S1000x2048, .f32⟩ : BufTy).Contents (Elt Ideal)) (x5 : (⟨S1000, .f32⟩ : BufTy).Contents (Elt Ideal))
    (y : Fin 4096 → Fin 1000) (hy : ∀ n, x1 (ix1 n) = BitVec.ofNat 32 (y n).val)
    (g : Fin 4096 → Fin 1000 → EReal) (hg : ∀ n k, val_main_v31 (F := Ideal) x0 x1 x2 x3 x4 x5 (ix2 n k) = g n k)
    (hreal : ∀ n k, Spec.IsReal (g n k)) :
    val_main_v38 (F := Ideal) x0 x1 x2 x3 x4 x5
      = fun _ => Ideal.div (Spec.zero + ∑ j : S4096.Idx, Spec.nllOf (g (j 0)) (y (j 0))) Spec.count := by
  funext i
  rw [val_main_v38_apply, val_main_v37_apply, val_main_cst_3_apply, val_main_cst_4_apply]
  refine congrArg (fun s => Ideal.div (Spec.zero + s) Spec.count) (Finset.sum_congr rfl fun j _ => ?_)
  rw [eq_ix1 j]
  exact negated_at x0 x1 x2 x3 x4 x5 y g hy hg hreal (j 0)

end Cert.ReferenceIdeal.RefValue

end
-- ==== Proof.RefRunProof.lean ====
/-
  The reference program's run, read back stage by stage.

  The reference is a straight line of 81 host operations, so every buffer ends at the fold of the operations over the launch
  contents. The fold is opened in three stretches — the 37 operations up to the augmented logits, the 15 of the log-softmax,
  the 29 that pick the label's entry, negate, sum and divide — each for an arbitrary starting valuation, its input stage given
  as a hypothesis, so that no step compares more than one stretch's term. The log-softmax's operations are written over
  references that carry their value's type; each is the same operation over the bare reference, the move along the type being
  the identity, and the stretch is opened in that form.
-/
import proofs.«419979_j506806141617_1_alg».proof.Proof.RefRead
import Idealize.ShloMosaic.Lib.Pipeline.Frame

noncomputable section

namespace Cert.ReferenceIdeal.RunProof

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-! ## The reference's 81 operations in three stretches: up to the augmented logits, the log-softmax, and the rest -/

abbrev opsA : List (HloOp τ sig (Elt F)) :=
  [ unary main_arg4 main_v0 ((transpose S2048x1000 [1, 0] · transposes_S1000x2048_S2048x1000_1_0) : (⟨S1000x2048, .f32⟩ : BufTy).Contents (Elt F) → (⟨S2048x1000, .f32⟩ : BufTy).Contents (Elt F)),
    binary main_arg0 main_v0 main_v1 ((fun l r => Host.dotGeneral dot_S4096x2048_S2048x1000_S4096x1000_1_0_0_1_n_n none l r) : (⟨S4096x2048, .f32⟩ : BufTy).Contents (Elt F) → (⟨S2048x1000, .f32⟩ : BufTy).Contents (Elt F) → (⟨S4096x1000, .f32⟩ : BufTy).Contents (Elt F)),
    unary main_arg5 main_v2 (broadcastInDim S1x1000 ![1] bcast_S1000_S1x1000_1 : (⟨S1000, .f32⟩ : BufTy).Contents (Elt F) → (⟨S1x1000, .f32⟩ : BufTy).Contents (Elt F)),
    unary main_v2 main_v3 (broadcastInDim S4096x1000 ![0, 1] bcast_S1x1000_S4096x1000_0_1 : (⟨S1x1000, .f32⟩ : BufTy).Contents (Elt F) → (⟨S4096x1000, .f32⟩ : BufTy).Contents (Elt F)),
    binary main_v1 main_v3 main_v4 (addf : (⟨S4096x1000, .f32⟩ : BufTy).Contents (Elt F) → (⟨S4096x1000, .f32⟩ : BufTy).Contents (Elt F) → (⟨S4096x1000, .f32⟩ : BufTy).Contents (Elt F)),
    nullary main_c (constantI S_ 32 0#32),
    unary main_c main_v5 (broadcastInDim S4096 ![] bcast_S_S4096 : (⟨S_, .i32⟩ : BufTy).Contents (Elt F) → (⟨S4096, .i32⟩ : BufTy).Contents (Elt F)),
    binary main_arg1 main_v5 main_v6 (cmpi .slt : (⟨S4096, .i32⟩ : BufTy).Contents (Elt F) → (⟨S4096, .i32⟩ : BufTy).Contents (Elt F) → (⟨S4096, .i1⟩ : BufTy).Contents (Elt F)),
    nullary main_c_0 (constantI S_ 32 1000#32),
    unary main_c_0 main_v7 (broadcastInDim S4096 ![] bcast_S_S4096 : (⟨S_, .i32⟩ : BufTy).Contents (Elt F) → (⟨S4096, .i32⟩ : BufTy).Contents (Elt F)),
    binary main_arg1 main_v7 main_v8 (addi : (⟨S4096, .i32⟩ : BufTy).Contents (Elt F) → (⟨S4096, .i32⟩ : BufTy).Contents (Elt F) → (⟨S4096, .i32⟩ : BufTy).Contents (Elt F)),
    ternary main_v6 main_v8 main_arg1 main_v9 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v9 main_v10 (broadcastInDim S4096x1 ![0] bcast_S4096_S4096x1_0 : (⟨S4096, .i32⟩ : BufTy).Contents (Elt F) → (⟨S4096x1, .i32⟩ : BufTy).Contents (Elt F)),
    binary main_arg4 main_v10 main_v11 ((fun x i => Host.gather gather_S1000x2048_S4096x1_S4096x2048_1_0_n_n_0_1_12048 x i) : (⟨S1000x2048, .f32⟩ : BufTy).Contents (Elt F) → (⟨S4096x1, .i32⟩ : BufTy).Contents (Elt F) → (⟨S4096x2048, .f32⟩ : BufTy).Contents (Elt F)),
    binary main_arg4 main_arg4 main_v12 (mulf : (⟨S1000x2048, .f32⟩ : BufTy).Contents (Elt F) → (⟨S1000x2048, .f32⟩ : BufTy).Contents (Elt F) → (⟨S1000x2048, .f32⟩ : BufTy).Contents (Elt F)),
    unary main_v12 main_v13 ((transpose S2048x1000 [1, 0] · transposes_S1000x2048_S2048x1000_1_0) : (⟨S1000x2048, .f32⟩ : BufTy).Contents (Elt F) → (⟨S2048x1000, .f32⟩ : BufTy).Contents (Elt F)),
    binary main_arg2 main_v13 main_v14 ((fun l r => Host.dotGeneral dot_S4096x2048_S2048x1000_S4096x1000_1_0_0_1_n_n none l r) : (⟨S4096x2048, .f32⟩ : BufTy).Contents (Elt F) → (⟨S2048x1000, .f32⟩ : BufTy).Contents (Elt F) → (⟨S4096x1000, .f32⟩ : BufTy).Contents (Elt F)),
    binary main_arg2 main_v11 main_v15 (mulf : (⟨S4096x2048, .f32⟩ : BufTy).Contents (Elt F) → (⟨S4096x2048, .f32⟩ : BufTy).Contents (Elt F) → (⟨S4096x2048, .f32⟩ : BufTy).Contents (Elt F)),
    unary main_arg4 main_v16 ((transpose S2048x1000 [1, 0] · transposes_S1000x2048_S2048x1000_1_0) : (⟨S1000x2048, .f32⟩ : BufTy).Contents (Elt F) → (⟨S2048x1000, .f32⟩ : BufTy).Contents (Elt F)),
    binary main_v15 main_v16 main_v17 ((fun l r => Host.dotGeneral dot_S4096x2048_S2048x1000_S4096x1000_1_0_0_1_n_n none l r) : (⟨S4096x2048, .f32⟩ : BufTy).Contents (Elt F) → (⟨S2048x1000, .f32⟩ : BufTy).Contents (Elt F) → (⟨S4096x1000, .f32⟩ : BufTy).Contents (Elt F)),
    binary main_v11 main_v11 main_v18 (mulf : (⟨S4096x2048, .f32⟩ : BufTy).Contents (Elt F) → (⟨S4096x2048, .f32⟩ : BufTy).Contents (Elt F) → (⟨S4096x2048, .f32⟩ : BufTy).Contents (Elt F)),
    binary main_v18 main_arg2 main_v19 (mulf : (⟨S4096x2048, .f32⟩ : BufTy).Contents (Elt F) → (⟨S4096x2048, .f32⟩ : BufTy).Contents (Elt F) → (⟨S4096x2048, .f32⟩ : BufTy).Contents (Elt F)),
    nullary main_cst (constant S_ .f32 0x00000000#32),
    binary main_v19 main_cst main_v20 ((fun x v => Host.reduceAdd x v reducesTo_S4096x2048_S4096_d1 h_S_) : (⟨S4096x2048, .f32⟩ : BufTy).Contents (Elt F) → (⟨S_, .f32⟩ : BufTy).Contents (Elt F) → (⟨S4096, .f32⟩ : BufTy).Contents (Elt F)),
    unary main_v20 main_v21 (broadcastInDim S4096x1 ![0] bcast_S4096_S4096x1_0 : (⟨S4096, .f32⟩ : BufTy).Contents (Elt F) → (⟨S4096x1, .f32⟩ : BufTy).Contents (Elt F)),
    nullary main_cst_1 (constant S_ .f32 0x40000000#32),
    unary main_cst_1 main_v22 (broadcastInDim S4096x1000 ![] bcast_S_S4096x1000 : (⟨S_, .f32⟩ : BufTy).Contents (Elt F) → (⟨S4096x1000, .f32⟩ : BufTy).Contents (Elt F)),
    binary main_v22 main_v17 main_v23 (mulf : (⟨S4096x1000, .f32⟩ : BufTy).Contents (Elt F) → (⟨S4096x1000, .f32⟩ : BufTy).Contents (Elt F) → (⟨S4096x1000, .f32⟩ : BufTy).Contents (Elt F)),
    binary main_v14 main_v23 main_v24 (subf : (⟨S4096x1000, .f32⟩ : BufTy).Contents (Elt F) → (⟨S4096x1000, .f32⟩ : BufTy).Contents (Elt F) → (⟨S4096x1000, .f32⟩ : BufTy).Contents (Elt F)),
    unary main_v21 main_v25 (broadcastInDim S4096x1000 ![0, 1] bcast_S4096x1_S4096x1000_0_1 : (⟨S4096x1, .f32⟩ : BufTy).Contents (Elt F) → (⟨S4096x1000, .f32⟩ : BufTy).Contents (Elt F)),
    binary main_v24 main_v25 main_v26 (addf : (⟨S4096x1000, .f32⟩ : BufTy).Contents (Elt F) → (⟨S4096x1000, .f32⟩ : BufTy).Contents (Elt F) → (⟨S4096x1000, .f32⟩ : BufTy).Contents (Elt F)),
    unary main_arg3 main_v27 (broadcastInDim S4096x1000 ![] bcast_S_S4096x1000 : (⟨S_, .f32⟩ : BufTy).Contents (Elt F) → (⟨S4096x1000, .f32⟩ : BufTy).Contents (Elt F)),
    binary main_v27 main_v26 main_v28 (mulf : (⟨S4096x1000, .f32⟩ : BufTy).Contents (Elt F) → (⟨S4096x1000, .f32⟩ : BufTy).Contents (Elt F) → (⟨S4096x1000, .f32⟩ : BufTy).Contents (Elt F)),
    nullary main_cst_2 (constant S_ .f32 0x3F000000#32),
    unary main_cst_2 main_v29 (broadcastInDim S4096x1000 ![] bcast_S_S4096x1000 : (⟨S_, .f32⟩ : BufTy).Contents (Elt F) → (⟨S4096x1000, .f32⟩ : BufTy).Contents (Elt F)),
    binary main_v29 main_v28 main_v30 (mulf : (⟨S4096x1000, .f32⟩ : BufTy).Contents (Elt F) → (⟨S4096x1000, .f32⟩ : BufTy).Contents (Elt F) → (⟨S4096x1000, .f32⟩ : BufTy).Contents (Elt F)),
    binary main_v4 main_v30 main_v31 (addf : (⟨S4096x1000, .f32⟩ : BufTy).Contents (Elt F) → (⟨S4096x1000, .f32⟩ : BufTy).Contents (Elt F) → (⟨S4096x1000, .f32⟩ : BufTy).Contents (Elt F)) ]

abbrev opsB : List (HloOp τ sig (Elt F)) :=
  [ TRef.nullary (TRef.of (T := ⟨S_, .f32⟩) main_call0_cst) (constant S_ .f32 0xFF800000#32),
    TRef.binary (TRef.of (T := ⟨S4096x1000, .f32⟩) main_v31) (TRef.of (T := ⟨S_, .f32⟩) main_call0_cst) (TRef.of (T := ⟨S4096, .f32⟩) main_call0_v0) (fun x v => Host.reduce FloatOps.maximumf x v reducesTo_S4096x1000_S4096_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4096, .f32⟩) main_call0_v1) (broadcastInDim S4096 ![] bcast_S_S4096),
    TRef.binary (TRef.of (T := ⟨S4096, .f32⟩) main_call0_v1) (TRef.of (T := ⟨S4096, .f32⟩) main_call0_v0) (TRef.of (T := ⟨S4096, .f32⟩) main_call0_v2) maximumf,
    TRef.unary (TRef.of (T := ⟨S4096, .f32⟩) main_call0_v2) (TRef.of (T := ⟨S4096x1, .f32⟩) main_call0_v3) (broadcastInDim S4096x1 ![0] bcast_S4096_S4096x1_0),
    TRef.unary (TRef.of (T := ⟨S4096x1, .f32⟩) main_call0_v3) (TRef.of (T := ⟨S4096x1000, .f32⟩) main_call0_v4) (broadcastInDim S4096x1000 ![0, 1] bcast_S4096x1_S4096x1000_0_1),
    TRef.binary (TRef.of (T := ⟨S4096x1000, .f32⟩) main_v31) (TRef.of (T := ⟨S4096x1000, .f32⟩) main_call0_v4) (TRef.of (T := ⟨S4096x1000, .f32⟩) main_call0_v5) subf,
    TRef.unary (TRef.of (T := ⟨S4096x1000, .f32⟩) main_call0_v5) (TRef.of (T := ⟨S4096x1000, .f32⟩) main_call0_v6) Host.exp,
    TRef.nullary (TRef.of (T := ⟨S_, .f32⟩) main_call0_cst_1) (constant S_ .f32 0x00000000#32),
    TRef.binary (TRef.of (T := ⟨S4096x1000, .f32⟩) main_call0_v6) (TRef.of (T := ⟨S_, .f32⟩) main_call0_cst_1) (TRef.of (T := ⟨S4096, .f32⟩) main_call0_v7) (fun x v => Host.reduceAdd x v reducesTo_S4096x1000_S4096_d1 h_S_),
    TRef.unary (TRef.of (T := ⟨S4096, .f32⟩) main_call0_v7) (TRef.of (T := ⟨S4096x1, .f32⟩) main_call0_v8) (broadcastInDim S4096x1 ![0] bcast_S4096_S4096x1_0),
    TRef.unary (TRef.of (T := ⟨S4096x1, .f32⟩) main_call0_v8) (TRef.of (T := ⟨S4096x1, .f32⟩) main_call0_v9) Host.log,
    TRef.unary (TRef.of (T := ⟨S4096x1, .f32⟩) main_call0_v9) (TRef.of (T := ⟨S4096x1000, .f32⟩) main_call0_v10) (broadcastInDim S4096x1000 ![0, 1] bcast_S4096x1_S4096x1000_0_1),
    TRef.binary (TRef.of (T := ⟨S4096x1000, .f32⟩) main_call0_v5) (TRef.of (T := ⟨S4096x1000, .f32⟩) main_call0_v10) (TRef.of (T := ⟨S4096x1000, .f32⟩) main_v32) subf ]

abbrev opsC : List (HloOp τ sig (Elt F)) :=
  [ unary main_arg1 main_v33 (broadcastInDim S4096x1 ![0] bcast_S4096_S4096x1_0 : (⟨S4096, .i32⟩ : BufTy).Contents (Elt F) → (⟨S4096x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S4096x1, .i32⟩) main_call1_v0) (broadcastInDim S4096x1 ![] bcast_S_S4096x1),
    TRef.binary (TRef.of (T := ⟨S4096x1, .i32⟩) main_v33) (TRef.of (T := ⟨S4096x1, .i32⟩) main_call1_v0) (TRef.of (T := ⟨S4096x1, .i1⟩) main_call1_v1) (cmpi .slt),
    TRef.nullary (TRef.of (T := ⟨S_, .i32⟩) main_call1_c_0) (constantI S_ 32 1000#32),
    TRef.unary (TRef.of (T := ⟨S_, .i32⟩) main_call1_c_0) (TRef.of (T := ⟨S4096x1, .i32⟩) main_call1_v2) (broadcastInDim S4096x1 ![] bcast_S_S4096x1),
    TRef.binary (TRef.of (T := ⟨S4096x1, .i32⟩) main_v33) (TRef.of (T := ⟨S4096x1, .i32⟩) main_call1_v2) (TRef.of (T := ⟨S4096x1, .i32⟩) main_call1_v3) addi,
    TRef.ternary (TRef.of (T := ⟨S4096x1, .i1⟩) main_call1_v1) (TRef.of (T := ⟨S4096x1, .i32⟩) main_call1_v3) (TRef.of (T := ⟨S4096x1, .i32⟩) main_v33) (TRef.of (T := ⟨S4096x1, .i32⟩) main_call1_v4) select,
    TRef.reshape (TRef.of (T := ⟨S4096x1, .i32⟩) main_call1_v4) (TRef.of (T := ⟨S4096x1x1, .i32⟩) main_call1_v5) rfl shapeCasts_S4096x1_S4096x1x1,
    TRef.nullary (TRef.of (T := ⟨S1, .i32⟩) main_call1_c_1) (constantI S1 32 999#32),
    TRef.nullary (TRef.of (T := ⟨S_, .i32⟩) main_call1_c_2) (constantI S_ 32 0#32),
    TRef.unary (TRef.of (T := ⟨S_, .i32⟩) main_call1_c_2) (TRef.of (T := ⟨S4096x1x1, .i32⟩) main_call1_v6) (broadcastInDim S4096x1x1 ![] bcast_S_S4096x1x1),
    TRef.binary (TRef.of (T := ⟨S4096x1x1, .i32⟩) main_call1_v5) (TRef.of (T := ⟨S4096x1x1, .i32⟩) main_call1_v6) (TRef.of (T := ⟨S4096x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S4096x1x1, .i32⟩) main_call1_v9) (broadcastInDim S4096x1x1 ![0, 1, 2] bcast_S1x1x1_S4096x1x1_0_1_2),
    TRef.binary (TRef.of (T := ⟨S4096x1x1, .i32⟩) main_call1_v5) (TRef.of (T := ⟨S4096x1x1, .i32⟩) main_call1_v9) (TRef.of (T := ⟨S4096x1x1, .i1⟩) main_call1_v10) (cmpi .sle),
    TRef.binary (TRef.of (T := ⟨S4096x1x1, .i1⟩) main_call1_v7) (TRef.of (T := ⟨S4096x1x1, .i1⟩) main_call1_v10) (TRef.of (T := ⟨S4096x1x1, .i1⟩) main_call1_v11) andi,
    TRef.nullary (TRef.of (T := ⟨S_, .i1⟩) main_call1_c_3) (constantI S_ 1 1#1),
    TRef.binary (TRef.of (T := ⟨S4096x1x1, .i1⟩) main_call1_v11) (TRef.of (T := ⟨S_, .i1⟩) main_call1_c_3) (TRef.of (T := ⟨S4096x1, .i1⟩) main_call1_v12) (fun x v => Host.reduce IntOp.andi x v reducesTo_S4096x1x1_S4096x1_d2 h_S_),
    TRef.binary (TRef.of (T := ⟨S4096x1000, .f32⟩) main_v32) (TRef.of (T := ⟨S4096x1x1, .i32⟩) main_call1_v5) (TRef.of (T := ⟨S4096x1, .f32⟩) main_call1_v13) (fun x i => Host.gather gather_S4096x1000_S4096x1x1_S4096x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S4096x1, .f32⟩) main_call1_v14) (broadcastInDim S4096x1 ![] bcast_S_S4096x1),
    TRef.ternary (TRef.of (T := ⟨S4096x1, .i1⟩) main_call1_v12) (TRef.of (T := ⟨S4096x1, .f32⟩) main_call1_v13) (TRef.of (T := ⟨S4096x1, .f32⟩) main_call1_v14) (TRef.of (T := ⟨S4096x1, .f32⟩) main_v34) select,
    reshape main_v34 main_v35 rfl shapeCasts_S4096x1_S4096,
    unary main_v35 main_v36 (Host.negf : (⟨S4096, .f32⟩ : BufTy).Contents (Elt F) → (⟨S4096, .f32⟩ : BufTy).Contents (Elt F)),
    nullary main_cst_3 (constant S_ .f32 0x00000000#32),
    binary main_v36 main_cst_3 main_v37 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_4 (constant S_ .f32 0x45800000#32),
    binary main_v37 main_cst_4 main_v38 (Host.divf : (⟨S_, .f32⟩ : BufTy).Contents (Elt F) → (⟨S_, .f32⟩ : BufTy).Contents (Elt F) → (⟨S_, .f32⟩ : BufTy).Contents (Elt F)) ]

set_option maxRecDepth 8192 in
theorem ops_split : (ops : List (HloOp τ sig (Elt F))) = opsA ++ (opsB ++ opsC) := rfl

abbrev opsBu : List (HloOp τ sig (Elt F)) :=
  [ nullary main_call0_cst ((constant S_ .f32 0xFF800000#32) : (⟨S_, .f32⟩ : BufTy).Contents (Elt F)),
    binary main_v31 main_call0_cst main_call0_v0 ((fun x v => Host.reduce FloatOps.maximumf x v reducesTo_S4096x1000_S4096_d1 h_S_) : (⟨S4096x1000, .f32⟩ : BufTy).Contents (Elt F) → (⟨S_, .f32⟩ : BufTy).Contents (Elt F) → (⟨S4096, .f32⟩ : BufTy).Contents (Elt F)),
    nullary main_call0_cst_0 ((constant S_ .f32 0xFF800000#32) : (⟨S_, .f32⟩ : BufTy).Contents (Elt F)),
    unary main_call0_cst_0 main_call0_v1 ((broadcastInDim S4096 ![] bcast_S_S4096) : (⟨S_, .f32⟩ : BufTy).Contents (Elt F) → (⟨S4096, .f32⟩ : BufTy).Contents (Elt F)),
    binary main_call0_v1 main_call0_v0 main_call0_v2 (maximumf : (⟨S4096, .f32⟩ : BufTy).Contents (Elt F) → (⟨S4096, .f32⟩ : BufTy).Contents (Elt F) → (⟨S4096, .f32⟩ : BufTy).Contents (Elt F)),
    unary main_call0_v2 main_call0_v3 ((broadcastInDim S4096x1 ![0] bcast_S4096_S4096x1_0) : (⟨S4096, .f32⟩ : BufTy).Contents (Elt F) → (⟨S4096x1, .f32⟩ : BufTy).Contents (Elt F)),
    unary main_call0_v3 main_call0_v4 ((broadcastInDim S4096x1000 ![0, 1] bcast_S4096x1_S4096x1000_0_1) : (⟨S4096x1, .f32⟩ : BufTy).Contents (Elt F) → (⟨S4096x1000, .f32⟩ : BufTy).Contents (Elt F)),
    binary main_v31 main_call0_v4 main_call0_v5 (subf : (⟨S4096x1000, .f32⟩ : BufTy).Contents (Elt F) → (⟨S4096x1000, .f32⟩ : BufTy).Contents (Elt F) → (⟨S4096x1000, .f32⟩ : BufTy).Contents (Elt F)),
    unary main_call0_v5 main_call0_v6 (Host.exp : (⟨S4096x1000, .f32⟩ : BufTy).Contents (Elt F) → (⟨S4096x1000, .f32⟩ : BufTy).Contents (Elt F)),
    nullary main_call0_cst_1 ((constant S_ .f32 0x00000000#32) : (⟨S_, .f32⟩ : BufTy).Contents (Elt F)),
    binary main_call0_v6 main_call0_cst_1 main_call0_v7 ((fun x v => Host.reduceAdd x v reducesTo_S4096x1000_S4096_d1 h_S_) : (⟨S4096x1000, .f32⟩ : BufTy).Contents (Elt F) → (⟨S_, .f32⟩ : BufTy).Contents (Elt F) → (⟨S4096, .f32⟩ : BufTy).Contents (Elt F)),
    unary main_call0_v7 main_call0_v8 ((broadcastInDim S4096x1 ![0] bcast_S4096_S4096x1_0) : (⟨S4096, .f32⟩ : BufTy).Contents (Elt F) → (⟨S4096x1, .f32⟩ : BufTy).Contents (Elt F)),
    unary main_call0_v8 main_call0_v9 (Host.log : (⟨S4096x1, .f32⟩ : BufTy).Contents (Elt F) → (⟨S4096x1, .f32⟩ : BufTy).Contents (Elt F)),
    unary main_call0_v9 main_call0_v10 ((broadcastInDim S4096x1000 ![0, 1] bcast_S4096x1_S4096x1000_0_1) : (⟨S4096x1, .f32⟩ : BufTy).Contents (Elt F) → (⟨S4096x1000, .f32⟩ : BufTy).Contents (Elt F)),
    binary main_call0_v5 main_call0_v10 main_v32 (subf : (⟨S4096x1000, .f32⟩ : BufTy).Contents (Elt F) → (⟨S4096x1000, .f32⟩ : BufTy).Contents (Elt F) → (⟨S4096x1000, .f32⟩ : BufTy).Contents (Elt F)) ]

/-- The row maximum's operation over typed references is the same operation over the bare references: the moves along the
    references' types are identities. -/
theorem opMax_eq : (TRef.binary (TRef.of (T := ⟨S4096x1000, .f32⟩) main_v31) (TRef.of (T := ⟨S_, .f32⟩) main_call0_cst) (TRef.of (T := ⟨S4096, .f32⟩) main_call0_v0) (fun x v => Host.reduce FloatOps.maximumf x v reducesTo_S4096x1000_S4096_d1 h_S_) : HloOp τ sig (Elt F)) = binary main_v31 main_call0_cst main_call0_v0 ((fun x v => Host.reduce FloatOps.maximumf x v reducesTo_S4096x1000_S4096_d1 h_S_) : (⟨S4096x1000, .f32⟩ : BufTy).Contents (Elt F) → (⟨S_, .f32⟩ : BufTy).Contents (Elt F) → (⟨S4096, .f32⟩ : BufTy).Contents (Elt F)) := by
  show StableHlo.binary main_v31 main_call0_cst main_call0_v0 _ _ _ _ = StableHlo.binary main_v31 main_call0_cst main_call0_v0 _ _ _ _
  refine congrArg (fun g => StableHlo.binary (τ := τ) main_v31 main_call0_cst main_call0_v0 g _ _ _) ?_
  funext u v
  refine (cast_eq _ _).trans ?_
  show Host.reduce FloatOps.maximumf _ _ _ _ = Host.reduce FloatOps.maximumf _ _ _ _
  congr 1 <;> exact cast_eq _ _

/-- So is every operation of the second stretch. -/
theorem opsB_eq : (opsB : List (HloOp τ sig (Elt F))) = opsBu := by
  show _ :: _ :: _ = _
  rw [opMax_eq]
  rfl

variable (V : Valuation τ sig (Elt F))

/-- After the first stretch the augmented logits' buffer holds their stage, as a function of the arguments. -/
theorem stageA : after opsA V (Proc.devRef .tc main_v31) = val_main_v31 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  after_results_simp <;> rfl

/-- The first two stretches leave the labels as they were. -/
theorem keepA_arg1 : after opsA V (Proc.devRef .tc main_arg1) = V (Proc.devRef .tc main_arg1) := by
  after_results_simp
theorem keepB_arg1 : after opsB V (Proc.devRef .tc main_arg1) = V (Proc.devRef .tc main_arg1) := by
  after_results_simp

/-- The second stretch takes the augmented logits' stage to the log-softmax's. -/
theorem stageB (x0 : (⟨S4096x2048, .f32⟩ : BufTy).Contents (Elt F)) (x1 : (⟨S4096, .i32⟩ : BufTy).Contents (Elt F))
    (x2 : (⟨S4096x2048, .f32⟩ : BufTy).Contents (Elt F)) (x3 : (⟨S_, .f32⟩ : BufTy).Contents (Elt F))
    (x4 : (⟨S1000x2048, .f32⟩ : BufTy).Contents (Elt F)) (x5 : (⟨S1000, .f32⟩ : BufTy).Contents (Elt F))
    (h : V (Proc.devRef .tc main_v31) = val_main_v31 x0 x1 x2 x3 x4 x5) :
    after opsB V (Proc.devRef .tc main_v32) = val_main_v32 x0 x1 x2 x3 x4 x5 := by
  rw [opsB_eq]
  after_results_simp
  rw [h]
  rfl

/-- The third stretch takes the log-softmax's stage and the labels to the loss. -/
theorem stageC (x0 : (⟨S4096x2048, .f32⟩ : BufTy).Contents (Elt F)) (x1 : (⟨S4096, .i32⟩ : BufTy).Contents (Elt F))
    (x2 : (⟨S4096x2048, .f32⟩ : BufTy).Contents (Elt F)) (x3 : (⟨S_, .f32⟩ : BufTy).Contents (Elt F))
    (x4 : (⟨S1000x2048, .f32⟩ : BufTy).Contents (Elt F)) (x5 : (⟨S1000, .f32⟩ : BufTy).Contents (Elt F))
    (h32 : V (Proc.devRef .tc main_v32) = val_main_v32 x0 x1 x2 x3 x4 x5) (h1 : V (Proc.devRef .tc main_arg1) = x1) :
    after opsC V (Proc.devRef .tc main_v38) = val_main_v38 x0 x1 x2 x3 x4 x5 := by
  after_results_simp
  rw [h32, h1]
  rfl

/-- The whole list: the loss's buffer ends at the loss's stage of the arguments. -/
theorem after_loss : after ops V (Proc.devRef .tc main_v38) = val_main_v38 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [ops_split, StableHlo.after_append, StableHlo.after_append]
  exact stageC _ _ _ _ _ _ _ (stageB _ _ _ _ _ _ _ (stageA V)) ((keepB_arg1 _).trans (keepA_arg1 V))

set_option maxRecDepth 8192 in
set_option maxHeartbeats 8000000 in
/-- On every device, from any memory with zero counters: every weakly fair execution of the reference terminates with the
    loss at its stage `val_main_v38` of the arguments, the logits at theirs, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38) = val_main_v38 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v4) = val_main_v4 (m ((c.tc : Thread nD τ).loc main_arg0)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v38).trans (after_loss _),
      (h c main_v4).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RunProof

end
-- ==== Proof.lean ====
/-
  The kernel and its reference compute one function on the extended reals: the logits x·Wᵀ + b of 4096 samples and the mean,
  over the samples, of the negative log-softmax of the augmented logits
    aug c = logit c + ½ · (ratio · ((∑ₐ v·(w c)² − 2 · ∑ₐ (v·w y)·(w c)) + ∑ₐ (w y)·(v·(w y))))
  at the sample's label y — the bracket being ∑ₐ (w c − w y)²·v with the square expanded.

  The kernel takes the label's weight row w y as a one-hot row times the weight matrix and picks the label's augmented logit by
  summing the one-hot row times the row; the reference gathers both at the label. The two agree exactly when the label is a
  class number, 0 ≤ label < 1000, which the precondition states (outside that range the reference wraps a negative label around
  and the kernel's one-hot row is empty). The kernel's loss is (max + log ∑ exp (aug − max)) − aug y, the reference's
  −((aug y − max) − log ∑ exp (aug − max)); for real numbers these are equal, and the precondition's finiteness of the float
  inputs makes every augmented logit, the maximum and the logarithm real. Products, sums and the maximum are the same
  extended reals on both sides whatever the tiling: the kernel works on 16 tiles of 256 samples whose blocks tile the arrays.

  The frames of the two kernel programs are the generated ones; the reference's frame is its run with the results dropped.
-/
import proofs.«419979_j506806141617_1_alg».proof.Defs
import proofs.«419979_j506806141617_1_alg».proof.Proof.Gen.Kernel
import proofs.«419979_j506806141617_1_alg».proof.Proof.Gen.Kernel.Skeleton
import proofs.«419979_j506806141617_1_alg».proof.Proof.Gen.Kernel.Launch
import proofs.«419979_j506806141617_1_alg».proof.Proof.Gen.Kernel.Points
import proofs.«419979_j506806141617_1_alg».proof.Proof.Gen.Kernel.Frame
import proofs.«419979_j506806141617_1_alg».proof.Proof.Gen.KernelIdeal
import proofs.«419979_j506806141617_1_alg».proof.Proof.Gen.KernelIdeal.Skeleton
import proofs.«419979_j506806141617_1_alg».proof.Proof.Gen.KernelIdeal.Launch
import proofs.«419979_j506806141617_1_alg».proof.Proof.Gen.KernelIdeal.Points
import proofs.«419979_j506806141617_1_alg».proof.Proof.Gen.KernelIdeal.Frame
import proofs.«419979_j506806141617_1_alg».proof.Proof.Gen.ReferenceIdeal
import proofs.«419979_j506806141617_1_alg».proof.Proof.Gen.Pre_finite_inputs
import proofs.«419979_j506806141617_1_alg».proof.Proof.Spec
import proofs.«419979_j506806141617_1_alg».proof.Proof.SpecReal
import proofs.«419979_j506806141617_1_alg».proof.Proof.PreDecode
import proofs.«419979_j506806141617_1_alg».proof.Proof.KernelValue
import proofs.«419979_j506806141617_1_alg».proof.Proof.RefAug
import proofs.«419979_j506806141617_1_alg».proof.Proof.RefLoss
import proofs.«419979_j506806141617_1_alg».proof.Proof.RefRunProof
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame: its run, the two results dropped. -/
theorem frame_ri : Cert.frame_ReferenceIdeal := fun m ρ _ =>
  (θ_run Cert.ReferenceIdeal.defs _ _).mono (fun _ h c => (h c).2.2) (Cert.ReferenceIdeal.RunProof.run (F := Ideal) m ρ)

/-- The idealized kernel is the kernel's own text read on the extended reals: no operation was rewritten. -/
theorem preserves : Cert.preserves_Kernel_KernelIdeal := trivial

open Cert.KernelIdeal.RunValue in
/-- From memories that agree on the arguments, under the precondition, both programs end with the loss at `lossArr` and the
    logits at `logitsArr` of the arguments. -/
theorem algebraic : Cert.algebraic_KernelIdeal_ReferenceIdeal := by
  intro m ρ m' ρ' hpre hagree
  have hd := fun c => Cert.PreDecode.decode _ _ _ _ _ _ (hpre c)
  have hlab : ∀ c i, (a1 m c i).toNat < 1000 := fun c => (hd c).2.2.2.2.2
  refine ⟨_, _, Cert.KernelIdeal.RunValue.run m ρ hlab, ?_⟩
  refine (θ_run Cert.ReferenceIdeal.defs _ _).mono (fun _ h c => ⟨(h c).1.trans ?_, (h c).2.1.trans ?_, (h c).2.2⟩)
    (Cert.ReferenceIdeal.RunProof.run (F := Ideal) m' ρ')
  · rw [(hagree c).1, (hagree c).2.1, (hagree c).2.2.1, (hagree c).2.2.2.1, (hagree c).2.2.2.2.1, (hagree c).2.2.2.2.2]
    obtain ⟨h0, h2, h3, h4, h5, -⟩ := hd c
    refine (Cert.ReferenceIdeal.RefValue.ref_loss (a0 m c) (a1 m c) (a2 m c) (a3 m c) (a4 m c) (a5 m c) (cls m c (hlab c))
      (cls_spec m c (hlab c))
      (fun n k => Spec.aug (Spec.row (a4 m c)) (Spec.vec (a5 m c)) (a3 m c ix0) (Spec.row (a0 m c) n) (Spec.row (a2 m c) n) (cls m c (hlab c) n) k)
      (fun n k => Cert.ReferenceIdeal.RefValue.ref_aug (a0 m c) (a1 m c) (a2 m c) (a3 m c) (a4 m c) (a5 m c) (cls m c (hlab c))
        (cls_spec m c (hlab c)) n k)
      (fun n k => Spec.aug_isReal (fun _ _ => h4 _) (fun _ => h5 _) (h3 _) (fun _ => h0 _) (fun _ => h2 _) _ _)).trans ?_
    rfl
  · rw [(hagree c).1, (hagree c).2.2.2.2.1, (hagree c).2.2.2.2.2]
    exact Cert.ReferenceIdeal.RefValue.ref_logits (a0 m c) (a4 m c) (a5 m c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
